-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S10x1024 : Shape := ⟨2, ![10, 1024]⟩
abbrev S10x64x65536 : Shape := ⟨3, ![10, 64, 65536]⟩
abbrev S_ : Shape := ⟨0, ![]⟩

class Facts : Prop where
  bcast_S_S10x64x65536 : S_.BroadcastsInDim S10x64x65536 (![] : Fin 0 → Fin S10x64x65536.rank)
  reducesTo_S10x64x65536_S_d0_1_2 : S10x64x65536.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : IVec S8192x1024 32) (main_arg1 : IVec S10x1024 32) (main_arg2 : FVec F S10x64x65536 .f32) : IVec S_ 1 :=
  let main_v0 : FVec F S10x64x65536 .f32 := Host.absf main_arg2
  let main_cst : FVec F S_ .f32 := constant S_ .f32 0x7F800000#32
  let main_v1 : FVec F S10x64x65536 .f32 := broadcastInDim S10x64x65536 ![] bcast_S_S10x64x65536 main_cst
  let main_v2 : IVec S10x64x65536 1 := cmpf .olt main_v0 main_v1
  let main_c : IVec S_ 1 := constantI S_ 1 1#1
  let main_v3 : IVec S_ 1 := (fun x v => Host.reduce IntOp.andi x v reducesTo_S10x64x65536_S_d0_1_2 h_S_) main_v2 main_c
  let main_c_0 : IVec S_ 32 := constantI S_ 32 0#32
  let main_v4 : IVec S8192x1024 32 := broadcastInDim S8192x1024 ![] bcast_S_S8192x1024 main_c_0
  let main_v5 : IVec S8192x1024 1 := cmpi .eq main_arg0 main_v4
  let main_c_1 : IVec S_ 32 := constantI S_ 32 1#32
  let main_v6 : IVec S8192x1024 32 := broadcastInDim S8192x1024 ![] bcast_S_S8192x1024 main_c_1
  let main_v7 : IVec S8192x1024 1 := cmpi .eq main_arg0 main_v6
  let main_v8 : IVec S8192x1024 1 := ori main_v5 main_v7
  let main_c_2 : IVec S_ 1 := constantI S_ 1 1#1
  let main_v9 : IVec S_ 1 := (fun x v => Host.reduce IntOp.andi x v reducesTo_S8192x1024_S_d0_1 h_S_) main_v8 main_c_2
  let main_v10 : IVec S_ 1 := andi main_v3 main_v9
  main_v10
-- ==== Kernel.lean ====
abbrev S8192x1024 : Shape := ⟨2, ![8192, 1024]⟩
abbrev S10x1024 : Shape := ⟨2, ![10, 1024]⟩
abbrev S10x64x65536 : Shape := ⟨3, ![10, 64, 65536]⟩
abbrev S_ : Shape := ⟨0, ![]⟩
abbrev S10x1024x1 : Shape := ⟨3, ![10, 1024, 1]⟩
abbrev S8192x10x1024 : Shape := ⟨3, ![8192, 10, 1024]⟩
abbrev S8192x10x64x16 : Shape := ⟨4, ![8192, 10, 64, 16]⟩
abbrev S16 : Shape := ⟨1, ![16]⟩
abbrev S1x1x1x16 : Shape := ⟨4, ![1, 1, 1, 16]⟩
abbrev S8192x10x64 : Shape := ⟨3, ![8192, 10, 64]⟩
abbrev S10x64x8192 : Shape := ⟨3, ![10, 64, 8192]⟩
abbrev S10x64x256x256 : Shape := ⟨4, ![10, 64, 256, 256]⟩
abbrev S10x1x8192 : Shape := ⟨3, ![10, 1, 8192]⟩
abbrev S1x64x1024 : Shape := ⟨3, ![1, 64, 1024]⟩
abbrev S1x64x256x256 : Shape := ⟨4, ![1, 64, 256, 256]⟩
abbrev S1x1x1024 : Shape := ⟨3, ![1, 1, 1024]⟩
abbrev S1024x256 : Shape := ⟨2, ![1024, 256]⟩
abbrev S1024x1 : Shape := ⟨2, ![1024, 1]⟩
abbrev S1024 : Shape := ⟨1, ![1024]⟩
abbrev S1x1x256x256 : Shape := ⟨4, ![1, 1, 256, 256]⟩
abbrev S256x256 : Shape := ⟨2, ![256, 256]⟩
abbrev S1x1024 : Shape := ⟨2, ![1, 1024]⟩
abbrev S10x8192 : Shape := ⟨2, ![10, 8192]⟩
abbrev S8192x10 : Shape := ⟨2, ![8192, 10]⟩

abbrev nBuf : Space → Nat
  | .hbm => 31
  | .vmem => 6
  | .smem => 0
  | _ => 0

abbrev bufTy : (tb : Table) → Fin (tcTables nBuf tb) → BufTy
  | .hbm, ⟨0, _⟩ => ⟨S8192x1024, .i32⟩
  | .hbm, ⟨1, _⟩ => ⟨S10x1024, .i32⟩
  | .hbm, ⟨2, _⟩ => ⟨S10x64x65536, .f32⟩
  | .hbm, ⟨3, _⟩ => ⟨S_, .i32⟩
  | .hbm, ⟨4, _⟩ => ⟨S10x1024, .i32⟩
  | .hbm, ⟨5, _⟩ => ⟨S10x1024, .i1⟩
  | .hbm, ⟨6, _⟩ => ⟨S_, .i32⟩
  | .hbm, ⟨7, _⟩ => ⟨S10x1024, .i32⟩
  | .hbm, ⟨8, _⟩ => ⟨S10x1024, .i32⟩
  | .hbm, ⟨9, _⟩ => ⟨S10x1024, .i32⟩
  | .hbm, ⟨10, _⟩ => ⟨S10x1024x1, .i32⟩
  | .hbm, ⟨11, _⟩ => ⟨S8192x10x1024, .i32⟩
  | .hbm, ⟨12, _⟩ => ⟨S8192x10x64x16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S1x1x1x16, .i32⟩
  | .hbm, ⟨21, _⟩ => ⟨S8192x10x64x16, .i32⟩
  | .hbm, ⟨22, _⟩ => ⟨S8192x10x64x16, .i32⟩
  | .hbm, ⟨23, _⟩ => ⟨S_, .i32⟩
  | .hbm, ⟨24, _⟩ => ⟨S8192x10x64, .i32⟩
  | .hbm, ⟨25, _⟩ => ⟨S10x64x8192, .i32⟩
  | .hbm, ⟨26, _⟩ => ⟨S10x64x256x256, .f32⟩
  | .hbm, ⟨27, _⟩ => ⟨S10x64x256x256, .bf16⟩
  | .hbm, ⟨28, _⟩ => ⟨S10x1x8192, .f32⟩
  | .hbm, ⟨29, _⟩ => ⟨S10x8192, .f32⟩
  | .hbm, ⟨30, _⟩ => ⟨S8192x10, .f32⟩
  | .local _ .vmem, ⟨0, _⟩ => ⟨S1x64x1024, .i32⟩
  | .local _ .vmem, ⟨1, _⟩ => ⟨S1x64x1024, .i32⟩
  | .local _ .vmem, ⟨2, _⟩ => ⟨S1x64x256x256, .bf16⟩
  | .local _ .vmem, ⟨3, _⟩ => ⟨S1x64x256x256, .bf16⟩
  | .local _ .vmem, ⟨4, _⟩ => ⟨S1x1x1024, .f32⟩
  | .local _ .vmem, ⟨5, _⟩ => ⟨S1x1x1024, .f32⟩
  | _, _ => ⟨S8192x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

@[reducible] def k0_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k0_off1 (k0_t1 : Fin k0_t1_loop.trips) : Fin 3 → Nat :=
  let c0_3 : Index := 0#32
  let c0_i32 : BitVec 32 := 0#32
  let c1_i32 : BitVec 32 := 1#32
  let arg5 : BitVec 32 := Scf.iv c0_i32 c1_i32 k0_t1
  let v8 : Index := Scalar.indexCast arg5
  let c0_4 : Index := 0#32
  ![0, v8.toNat, 0]
def k0_off2 (k0_t1 : Fin k0_t1_loop.trips) : Fin 4 → Nat :=
  let c0_5 : Index := 0#32
  let c0_i32 : BitVec 32 := 0#32
  let c1_i32 : BitVec 32 := 1#32
  let arg5 : BitVec 32 := Scf.iv c0_i32 c1_i32 k0_t1
  let v26 : Index := Scalar.indexCast arg5
  let c0_6 : Index := 0#32
  let c0_7 : Index := 0#32
  ![0, v26.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S10x1024 : S_.BroadcastsInDim S10x1024 (![] : Fin 0 → Fin S10x1024.rank)
  bcast_S10x1024_S10x1024x1_0_1 : S10x1024.BroadcastsInDim S10x1024x1 (![0, 1] : Fin 2 → Fin S10x1024x1.rank)
  shapeCasts_S8192x10x1024_S8192x10x64x16 : S8192x10x1024.ShapeCasts S8192x10x64x16
  bcast_S_S16 : S_.BroadcastsInDim S16 (![] : Fin 0 → Fin S16.rank)
  bcast_S16_S1x1x1x16_3 : S16.BroadcastsInDim S1x1x1x16 (![3] : Fin 1 → Fin S1x1x1x16.rank)
  bcast_S1x1x1x16_S8192x10x64x16_0_1_2_3 : S1x1x1x16.BroadcastsInDim S8192x10x64x16 (![0, 1, 2, 3] : Fin 4 → Fin S8192x10x64x16.rank)
  reducesTo_S8192x10x64x16_S8192x10x64_d3 : S8192x10x64x16.ReducesTo [3] S8192x10x64
  h_S_ : 0 < S_.numel
  transposes_S8192x10x64_S10x64x8192_1_2_0 : S8192x10x64.Transposes [1, 2, 0] S10x64x8192
  shapeCasts_S10x64x65536_S10x64x256x256 : S10x64x65536.ShapeCasts S10x64x256x256
  bitsLt_bf16_f32 : FTy.bits .bf16 < FTy.bits .f32
  iota_S1024x256_d1_w32 : S1024x256.Iotas .tc 32 [1]
  h_S1x1x1024 : 0 < S1x1x1024.numel
  shapeCasts_S1x1x1024_S1024 : S1x1x1024.ShapeCasts S1024
  shapeCasts_S1024_S1024x1 : S1024.ShapeCasts S1024x1
  broadcasts_S1024x1_S1024x256 : S1024x1.Broadcasts S1024x256
  natLt_1_32 : 1 < 32
  h_S1x1x256x256 : 0 < S1x1x256x256.numel
  shapeCasts_S1x1x256x256_S256x256 : S1x1x256x256.ShapeCasts S256x256
  reduces_S1024x256_S1024 : S1024x256.Reduces [1] S1024
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  shapeCasts_S1x1x1024_S1x1024 : S1x1x1024.ShapeCasts S1x1024
  shapeCasts_S1x1024_S1x1x1024 : S1x1024.ShapeCasts S1x1x1024
  shapeCasts_S10x1x8192_S10x8192 : S10x1x8192.ShapeCasts S10x8192
  transposes_S10x8192_S8192x10_1_0 : S10x8192.Transposes [1, 0] S8192x10
  gather_S8192x1024_S10x1024x1_S8192x10x1024_0_1_n_n_1_2_81921_wf : GatherDims.WF S8192x1024 S10x1024x1 S8192x10x1024 [0] [1] [] [1] [] 2 ![8192, 1]
  dot_S1024x256_S256x256_S1024x256_1_0_0_1_n_n_wf : DotDims.WF S1024x256 S256x256 S1024x256 [1] [0] [0] [1] [] []
  hrank0 : 0 < grid0.rank
  k0_t1_ok : k0_t1_loop.OK
  k0_off1_inb : ∀ k0_t1 : Fin k0_t1_loop.trips, ∀ a, (k0_off1 k0_t1) a + S1x1x1024.size a ≤ S1x64x1024.size a
  k0_off2_inb : ∀ k0_t1 : Fin k0_t1_loop.trips, ∀ a, (k0_off2 k0_t1) a + S1x1x256x256.size a ≤ S1x64x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S10x64x8192.size a
  hwx0_0 : ∀ i : grid0.Coords, EltTy.bits .i32 = 32 ∨ (Rect.block (s := S10x64x8192) S1x64x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256x256.size a ≤ S10x64x256x256.size a
  hwx0_1 : ∀ i : grid0.Coords, EltTy.bits .bf16 = 32 ∨ (Rect.block (s := S10x64x256x256) S1x64x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S10x1x8192.size a
  hwx0_2 : ∀ i : grid0.Coords, EltTy.bits .f32 = 32 ∨ (Rect.block (s := S10x1x8192) S1x1x1024.size (cc0_transform_2 i) (hinb0_2 i)).WholeWords (EltTy.packing .f32)

variable [Facts₀]

def gather_S8192x1024_S10x1024x1_S8192x10x1024_0_1_n_n_1_2_81921 : GatherDims S8192x1024 S10x1024x1 S8192x10x1024 where
  offsetDims := [0]
  collapsedSliceDims := [1]
  operandBatchingDims := []
  startIndicesBatchingDims := []
  startIndexMap := [1]
  indexVectorDim := 2
  sliceSizes := ![8192, 1]
  wf := gather_S8192x1024_S10x1024x1_S8192x10x1024_0_1_n_n_1_2_81921_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v17) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x64x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S10x1024 : Shape := ⟨2, ![10, 1024]⟩
abbrev S10x64x65536 : Shape := ⟨3, ![10, 64, 65536]⟩
abbrev S_ : Shape := ⟨0, ![]⟩
abbrev S10x1024x1 : Shape := ⟨3, ![10, 1024, 1]⟩
abbrev S8192x10x1024 : Shape := ⟨3, ![8192, 10, 1024]⟩
abbrev S8192x10x64x16 : Shape := ⟨4, ![8192, 10, 64, 16]⟩
abbrev S16 : Shape := ⟨1, ![16]⟩
abbrev S1x1x1x16 : Shape := ⟨4, ![1, 1, 1, 16]⟩
abbrev S8192x10x64 : Shape := ⟨3, ![8192, 10, 64]⟩
abbrev S10 : Shape := ⟨1, ![10]⟩
abbrev S1x10x1 : Shape := ⟨3, ![1, 10, 1]⟩
abbrev S64 : Shape := ⟨1, ![64]⟩
abbrev S1x1x64 : Shape := ⟨3, ![1, 1, 64]⟩
abbrev S8192x10x64x1 : Shape := ⟨4, ![8192, 10, 64, 1]⟩
abbrev S8192x10x64x3 : Shape := ⟨4, ![8192, 10, 64, 3]⟩
abbrev S8192x10 : Shape := ⟨2, ![8192, 10]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .i32⟩
  | .hbm, ⟨1, _⟩ => ⟨S10x1024, .i32⟩
  | .hbm, ⟨2, _⟩ => ⟨S10x64x65536, .f32⟩
  | .hbm, ⟨3, _⟩ => ⟨S_, .i32⟩
  | .hbm, ⟨4, _⟩ => ⟨S10x1024, .i32⟩
  | .hbm, ⟨5, _⟩ => ⟨S10x1024, .i1⟩
  | .hbm, ⟨6, _⟩ => ⟨S_, .i32⟩
  | .hbm, ⟨7, _⟩ => ⟨S10x1024, .i32⟩
  | .hbm, ⟨8, _⟩ => ⟨S10x1024, .i32⟩
  | .hbm, ⟨9, _⟩ => ⟨S10x1024, .i32⟩
  | .hbm, ⟨10, _⟩ => ⟨S10x1024x1, .i32⟩
  | .hbm, ⟨11, _⟩ => ⟨S8192x10x1024, .i32⟩
  | .hbm, ⟨12, _⟩ => ⟨S8192x10x64x16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S1x1x1x16, .i32⟩
  | .hbm, ⟨21, _⟩ => ⟨S8192x10x64x16, .i32⟩
  | .hbm, ⟨22, _⟩ => ⟨S8192x10x64x16, .i32⟩
  | .hbm, ⟨23, _⟩ => ⟨S_, .i32⟩
  | .hbm, ⟨24, _⟩ => ⟨S8192x10x64, .i32⟩
  | .hbm, ⟨25, _⟩ => ⟨S10, .i32⟩
  | .hbm, ⟨26, _⟩ => ⟨S1x10x1, .i32⟩
  | .hbm, ⟨27, _⟩ => ⟨S64, .i32⟩
  | .hbm, ⟨28, _⟩ => ⟨S1x1x64, .i32⟩
  | .hbm, ⟨29, _⟩ => ⟨S_, .i32⟩
  | .hbm, ⟨30, _⟩ => ⟨S1x10x1, .i32⟩
  | .hbm, ⟨31, _⟩ => ⟨S1x10x1, .i1⟩
  | .hbm, ⟨32, _⟩ => ⟨S_, .i32⟩
  | .hbm, ⟨33, _⟩ => ⟨S1x10x1, .i32⟩
  | .hbm, ⟨34, _⟩ => ⟨S1x10x1, .i32⟩
  | .hbm, ⟨35, _⟩ => ⟨S1x10x1, .i32⟩
  | .hbm, ⟨36, _⟩ => ⟨S_, .i32⟩
  | .hbm, ⟨37, _⟩ => ⟨S1x1x64, .i32⟩
  | .hbm, ⟨38, _⟩ => ⟨S1x1x64, .i1⟩
  | .hbm, ⟨39, _⟩ => ⟨S_, .i32⟩
  | .hbm, ⟨40, _⟩ => ⟨S1x1x64, .i32⟩
  | .hbm, ⟨41, _⟩ => ⟨S1x1x64, .i32⟩
  | .hbm, ⟨42, _⟩ => ⟨S1x1x64, .i32⟩
  | .hbm, ⟨43, _⟩ => ⟨S_, .i32⟩
  | .hbm, ⟨44, _⟩ => ⟨S8192x10x64, .i32⟩
  | .hbm, ⟨45, _⟩ => ⟨S8192x10x64, .i1⟩
  | .hbm, ⟨46, _⟩ => ⟨S_, .i32⟩
  | .hbm, ⟨47, _⟩ => ⟨S8192x10x64, .i32⟩
  | .hbm, ⟨48, _⟩ => ⟨S8192x10x64, .i32⟩
  | .hbm, ⟨49, _⟩ => ⟨S8192x10x64, .i32⟩
  | .hbm, ⟨50, _⟩ => ⟨S8192x10x64, .i32⟩
  | .hbm, ⟨51, _⟩ => ⟨S8192x10x64, .i32⟩
  | .hbm, ⟨52, _⟩ => ⟨S8192x10x64x1, .i32⟩
  | .hbm, ⟨53, _⟩ => ⟨S8192x10x64x1, .i32⟩
  | .hbm, ⟨54, _⟩ => ⟨S8192x10x64x1, .i32⟩
  | .hbm, ⟨55, _⟩ => ⟨S8192x10x64x3, .i32⟩
  | .hbm, ⟨56, _⟩ => ⟨S8192x10x64, .f32⟩
  | .hbm, ⟨57, _⟩ => ⟨S_, .f32⟩
  | .hbm, ⟨58, _⟩ => ⟨S8192x10, .f32⟩
  | _, _ => ⟨S8192x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_c_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S_S10x1024 : S_.BroadcastsInDim S10x1024 (![] : Fin 0 → Fin S10x1024.rank)
  bcast_S10x1024_S10x1024x1_0_1 : S10x1024.BroadcastsInDim S10x1024x1 (![0, 1] : Fin 2 → Fin S10x1024x1.rank)
  shapeCasts_S8192x10x1024_S8192x10x64x16 : S8192x10x1024.ShapeCasts S8192x10x64x16
  bcast_S_S16 : S_.BroadcastsInDim S16 (![] : Fin 0 → Fin S16.rank)
  bcast_S16_S1x1x1x16_3 : S16.BroadcastsInDim S1x1x1x16 (![3] : Fin 1 → Fin S1x1x1x16.rank)
  bcast_S1x1x1x16_S8192x10x64x16_0_1_2_3 : S1x1x1x16.BroadcastsInDim S8192x10x64x16 (![0, 1, 2, 3] : Fin 4 → Fin S8192x10x64x16.rank)
  reducesTo_S8192x10x64x16_S8192x10x64_d3 : S8192x10x64x16.ReducesTo [3] S8192x10x64
  h_S_ : 0 < S_.numel
  bcast_S10_S1x10x1_1 : S10.BroadcastsInDim S1x10x1 (![1] : Fin 1 → Fin S1x10x1.rank)
  bcast_S64_S1x1x64_2 : S64.BroadcastsInDim S1x1x64 (![2] : Fin 1 → Fin S1x1x64.rank)
  bcast_S_S1x10x1 : S_.BroadcastsInDim S1x10x1 (![] : Fin 0 → Fin S1x10x1.rank)
  bcast_S_S1x1x64 : S_.BroadcastsInDim S1x1x64 (![] : Fin 0 → Fin S1x1x64.rank)
  bcast_S_S8192x10x64 : S_.BroadcastsInDim S8192x10x64 (![] : Fin 0 → Fin S8192x10x64.rank)
  bcast_S1x10x1_S8192x10x64_0_1_2 : S1x10x1.BroadcastsInDim S8192x10x64 (![0, 1, 2] : Fin 3 → Fin S8192x10x64.rank)
  bcast_S1x1x64_S8192x10x64_0_1_2 : S1x1x64.BroadcastsInDim S8192x10x64 (![0, 1, 2] : Fin 3 → Fin S8192x10x64.rank)
  bcast_S8192x10x64_S8192x10x64x1_0_1_2 : S8192x10x64.BroadcastsInDim S8192x10x64x1 (![0, 1, 2] : Fin 3 → Fin S8192x10x64x1.rank)
  concatenates_S8192x10x64x1_S8192x10x64x1_S8192x10x64x1_S8192x10x64x3_d3 : Shape.Concatenates [S8192x10x64x1, S8192x10x64x1, S8192x10x64x1] S8192x10x64x3 3
  reducesTo_S8192x10x64_S8192x10_d2 : S8192x10x64.ReducesTo [2] S8192x10
  gather_S8192x1024_S10x1024x1_S8192x10x1024_0_1_n_n_1_2_81921_wf : GatherDims.WF S8192x1024 S10x1024x1 S8192x10x1024 [0] [1] [] [1] [] 2 ![8192, 1]
  gather_S10x64x65536_S8192x10x64x3_S8192x10x64_n_012_n_n_012_3_111_wf : GatherDims.WF S10x64x65536 S8192x10x64x3 S8192x10x64 [] [0, 1, 2] [] [0, 1, 2] [] 3 ![1, 1, 1]

variable [Facts₀]

def gather_S8192x1024_S10x1024x1_S8192x10x1024_0_1_n_n_1_2_81921 : GatherDims S8192x1024 S10x1024x1 S8192x10x1024 where
  offsetDims := [0]
  collapsedSliceDims := [1]
  operandBatchingDims := []
  startIndicesBatchingDims := []
  startIndexMap := [1]
  indexVectorDim := 2
  sliceSizes := ![8192, 1]
  wf := gather_S8192x1024_S10x1024x1_S8192x10x1024_0_1_n_n_1_2_81921_wf
def gather_S10x64x65536_S8192x10x64x3_S8192x10x64_n_012_n_n_012_3_111 : GatherDims S10x64x65536 S8192x10x64x3 S8192x10x64 where
  offsetDims := []
  collapsedSliceDims := [0, 1, 2]
  operandBatchingDims := []
  startIndicesBatchingDims := []
  startIndexMap := [0, 1, 2]
  indexVectorDim := 3
  sliceSizes := ![1, 1, 1]
  wf := gather_S10x64x65536_S8192x10x64x3_S8192x10x64_n_012_n_n_012_3_111_wf

class Facts : Prop extends Facts₀ where

variable [Facts]
-- ==== Proof.Spec.lean ====
/-
  The membership count, stated once for both programs.

  A sample is a row of 1024 bits. For class `c` the bits are permuted by the class's mapping and cut into 64 tuples of
  16 bits; tuple `r`, read big-endian, is an address `a(b, c, r)` below 2^16. The response of sample `b` for class
  `c` is the sum, over the 64 memories `r`, of the table entry `table[c, r, a(b, c, r)]`.

  `addr` is the packed address as both programs compute it on the host (the same chain of operations in each);
  `response` is the count as one function of the three argument arrays, index by index.
-/
import proofs.«400448_j68401649156855_1_alg».proof.ReferenceIdeal
import Idealize.ShloMosaic.PureOps.Ideal
import Idealize.ShloMosaic.Lib.ValueIdx

noncomputable section

namespace Cert.RamLookup

open Idealize.ShloMosaic Idealize.ShloMosaic.ValueIdx
open Cert.ReferenceIdeal

variable [Cert.ReferenceIdeal.Facts]
open Cert.ReferenceIdeal.Facts₀

/-- Every sample entry is a bit: the word 0 or the word 1. -/
def IsBits (s : IVec S8192x1024 32) : Prop := ∀ i, s i = 0#32 ∨ s i = 1#32

/-- The mapping's entries with a negative one wrapped once by the row length (the indexing convention). -/
def wrapped (tm : IVec S10x1024 32) : IVec S10x1024 32 :=
  select (cmpi .slt tm (broadcastInDim S10x1024 ![] bcast_S_S10x1024 (constantI S_ 32 0#32)))
    (addi tm (broadcastInDim S10x1024 ![] bcast_S_S10x1024 (constantI S_ 32 1024#32))) tm

/-- The permuted bits, regrouped as [sample, class, memory, bit of the tuple]. -/
def tuples (s : IVec S8192x1024 32) (tm : IVec S10x1024 32) : IVec S8192x10x64x16 32 :=
  shapeCast _ (Host.gather gather_S8192x1024_S10x1024x1_S8192x10x1024_0_1_n_n_1_2_81921 s
    (broadcastInDim S10x1024x1 ![0, 1] bcast_S10x1024_S10x1024x1_0_1 (wrapped tm))) shapeCasts_S8192x10x1024_S8192x10x64x16

/-- The shift amounts 15 - t, t = 0 … 15, laid along the last axis. -/
def shifts : IVec S8192x10x64x16 32 :=
  broadcastInDim S8192x10x64x16 ![0, 1, 2, 3] bcast_S1x1x1x16_S8192x10x64x16_0_1_2_3
    (broadcastInDim S1x1x1x16 ![3] bcast_S16_S1x1x1x16_3
      (addi (broadcastInDim S16 ![] bcast_S_S16 (constantI S_ 32 15#32))
        (muli (broadcastInDim S16 ![] bcast_S_S16 (constantI S_ 32 4294967295#32)) (iotaInDim S16 32 0))))

/-- The packed address of tuple `r` of sample `b` under class `c`'s permutation: bit t shifted to position 15 - t, summed. -/
def addr (s : IVec S8192x1024 32) (tm : IVec S10x1024 32) : IVec S8192x10x64 32 :=
  Host.reduce IntOp.addi (Host.shli (tuples s tm) shifts) (constantI S_ 32 0#32) reducesTo_S8192x10x64x16_S8192x10x64_d3 h_S_

/-- An address word as a position on the table's last axis. -/
def pos (a : BitVec 32) : Fin 65536 := ⟨a.toNat % 65536, Nat.mod_lt _ (by decide)⟩

/-- The response of sample `b` for class `c`: over the 64 memories, the sum of the table entries at the packed addresses. -/
def response (s : IVec S8192x1024 32) (tm : IVec S10x1024 32) (table : FVec Ideal S10x64x65536 .f32)
    (b : Fin 8192) (c : Fin 10) : EReal :=
  ∑ r : Fin 64, (table (ix3 c r (pos (addr s tm (ix3 b c r)))) : EReal)

/-- The whole result array. -/
def G (s : IVec S8192x1024 32) (tm : IVec S10x1024 32) (table : FVec Ideal S10x64x65536 .f32) : FVec Ideal S8192x10 .f32 :=
  fun i => response s tm table (i 0) (i 1)

end Cert.RamLookup

end
-- ==== Proof.RefValue.lean ====
/-
  The reference's result, read as the membership count.

  The reference computes, on the host, the packed address a(b, c, r) of tuple r of sample b under class c's permutation,
  lays three index columns side by side — the class coordinate, the memory coordinate, the address, each with a negative
  word wrapped once by its axis length — gathers the table at those three-component indices, and sums the gathered
  array over the memory axis from zero. Here every piece is read at explicit coordinates (b, c', r):

  * the class and memory columns are iotas, words below 2^31, so the wrap leaves them and their signed reading is the
    coordinate itself;
  * the address column is the specification's address; below 2^16 it is not negative, so the wrap leaves it, and its
    signed reading is its position on the table's last axis;
  * the three columns laid along a last axis of extent 3, read at component k, give column k;
  * the gather, all three table axes collapsed and indexed, reads the table at the three signed components, each
    clamped into its axis — already inside it, so unchanged;
  * the sum over the memory axis at the extended reals is the initial zero plus the sum over r of the gathered entry.

  Together: the result at (b, c') is the sum over the 64 memories r of table[c', r, a(b, c', r)].
-/
import proofs.«400448_j68401649156855_1_alg».proof.Proof.Spec
import proofs.«400448_j68401649156855_1_alg».proof.Proof.RefRun
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate

noncomputable section

namespace Cert.RamLookup

open Idealize.ShloMosaic Idealize.ShloMosaic.ValueIdx Idealize.ShloMosaic.TcCoe Cert.ReferenceIdeal

variable [Cert.ReferenceIdeal.Facts]
open Cert.ReferenceIdeal.Facts₀

/-! ## Words: the wrap of a word that is not negative leaves it -/

/-- A small iota word is not negative, so the wrap-around select keeps it (class axis). -/
theorem keep10 : ∀ k : Fin 10, Scalar.select (IntOp.cmpi .slt (BitVec.ofNat 32 k.val) 0#32)
    (IntOp.addi (BitVec.ofNat 32 k.val) 10#32) (BitVec.ofNat 32 k.val) = BitVec.ofNat 32 k.val := by decide

/-- … and on the memory axis. -/
theorem keep64 : ∀ k : Fin 64, Scalar.select (IntOp.cmpi .slt (BitVec.ofNat 32 k.val) 0#32)
    (IntOp.addi (BitVec.ofNat 32 k.val) 64#32) (BitVec.ofNat 32 k.val) = BitVec.ofNat 32 k.val := by decide

/-- An address below 2^16 is not negative, so the wrap-around select keeps it. -/
theorem keepAddr (a : BitVec 32) (h : a.toNat < 65536) :
    Scalar.select (IntOp.cmpi .slt a 0#32) (IntOp.addi a 65536#32) a = a := by
  unfold Scalar.select
  rw [if_neg]
  intro hc
  have := (StableHlo.Predicate.slt_iff_toNat (a := a) (b := 0#32) (by omega) (by decide)).1 hc
  simp at this

/-- A word below 2^16, read signed, is its position on the table's last axis. -/
theorem toInt_pos (a : BitVec 32) (h : a.toNat < 65536) : a.toInt = ((pos a).val : ℤ) := by
  rw [StableHlo.Predicate.toInt_eq_toNat_of_lt (by omega)]
  show (a.toNat : ℤ) = ((a.toNat % 65536 : ℕ) : ℤ)
  rw [Nat.mod_eq_of_lt h]

/-! ## The three index columns at (b, c', r) -/
/-- The class index column at (b, c', r) is the word c'. -/
theorem v38_apply (m : (ℓ : Loc nD τ sig) → Buf (Elt Ideal) ℓ) (c : Dev nD) (b : Fin 8192) (c' : Fin 10) (r : Fin 64) :
    Cert.ReferenceIdeal.RunP.res_main_v38 (F := Ideal) m c (ix4 b c' r (0 : Fin 1)) = BitVec.ofNat 32 c'.val := by
  refine Eq.trans ?_ (keep10 c')
  rfl

/-- The memory index column at (b, c', r) is the word r. -/
theorem v39_apply (m : (ℓ : Loc nD τ sig) → Buf (Elt Ideal) ℓ) (c : Dev nD) (b : Fin 8192) (c' : Fin 10) (r : Fin 64) :
    Cert.ReferenceIdeal.RunP.res_main_v39 (F := Ideal) m c (ix4 b c' r (0 : Fin 1)) = BitVec.ofNat 32 r.val := by
  refine Eq.trans ?_ (keep64 r)
  rfl

/-- The packed address, as the reference's run names it, is the specification's. -/
theorem v16_eq (m : (ℓ : Loc nD τ sig) → Buf (Elt Ideal) ℓ) (c : Dev nD) :
    Cert.ReferenceIdeal.RunP.res_main_v16 (F := Ideal) m c
      = addr (m ((c.tc : Thread nD τ).loc main_arg0)) (m ((c.tc : Thread nD τ).loc main_arg1)) := rfl

/-- Any array of words below 2^16, passed through the wrap-around select and laid out as an index column,
    reads at (b, c', r) its own entry there. -/
theorem wrapCol_apply (A : IVec S8192x10x64 32) (b : Fin 8192) (c' : Fin 10) (r : Fin 64)
    (h : (A (ix3 b c' r)).toNat < 65536) :
    broadcastInDim S8192x10x64x1 ![0, 1, 2] bcast_S8192x10x64_S8192x10x64x1_0_1_2
      (select (cmpi .slt A (broadcastInDim S8192x10x64 ![] bcast_S_S8192x10x64 (constantI S_ 32 0#32)))
        (addi A (broadcastInDim S8192x10x64 ![] bcast_S_S8192x10x64 (constantI S_ 32 65536#32))) A)
      (ix4 b c' r (0 : Fin 1)) = A (ix3 b c' r) := by
  rw [broadcastInDim_apply _ _ _ (ix4 b c' r (0 : Fin 1)) (ix3 b c' r) (by
    intro a
    match a with
    | ⟨0, _⟩ => rfl
    | ⟨1, _⟩ => rfl
    | ⟨2, _⟩ => rfl)]
  exact keepAddr _ h

/-- The address index column at (b, c', r) is the packed address there, when that is below 2^16. -/
theorem v40_apply (m : (ℓ : Loc nD τ sig) → Buf (Elt Ideal) ℓ) (c : Dev nD) (b : Fin 8192) (c' : Fin 10) (r : Fin 64)
    (h : (addr (m ((c.tc : Thread nD τ).loc main_arg0)) (m ((c.tc : Thread nD τ).loc main_arg1)) (ix3 b c' r)).toNat < 65536) :
    Cert.ReferenceIdeal.RunP.res_main_v40 (F := Ideal) m c (ix4 b c' r (0 : Fin 1))
      = addr (m ((c.tc : Thread nD τ).loc main_arg0)) (m ((c.tc : Thread nD τ).loc main_arg1)) (ix3 b c' r) := by
  unfold Cert.ReferenceIdeal.RunP.res_main_v40
  rw [v16_eq m c]
  exact wrapCol_apply _ b c' r h

/-! ## The columns laid side by side -/

/-- Three index columns laid side by side along a last axis of extent 3, read at component 0: the first column. -/
theorem cat_apply0 {α : Type} (x0 x1 x2 : S8192x10x64x1.Idx → α)
    (h : Shape.Concatenates [S8192x10x64x1, S8192x10x64x1, S8192x10x64x1] S8192x10x64x3 3) (b : Fin 8192) (c' : Fin 10) (r : Fin 64) :
    concatenate S8192x10x64x3 3 [⟨S8192x10x64x1, x0⟩, ⟨S8192x10x64x1, x1⟩, ⟨S8192x10x64x1, x2⟩] h (ix4 b c' r (0 : Fin 3))
      = x0 (ix4 b c' r (0 : Fin 1)) := by
  refine concatenate_apply_piece (t := S8192x10x64x3) 3 [⟨S8192x10x64x1, x0⟩, ⟨S8192x10x64x1, x1⟩, ⟨S8192x10x64x1, x2⟩]
    h (ix4 b c' r (0 : Fin 3)) 0 (by simp) S8192x10x64x1 x0 rfl rfl 0 rfl
    (ix4 b c' r (0 : Fin 1)) ?_ rfl
  intro q hq
  match q with
  | ⟨0, _⟩ => rfl
  | ⟨1, _⟩ => rfl
  | ⟨2, _⟩ => rfl
  | ⟨3, _⟩ => exact absurd rfl hq

/-- … at component 1: the second column. -/
theorem cat_apply1 {α : Type} (x0 x1 x2 : S8192x10x64x1.Idx → α)
    (h : Shape.Concatenates [S8192x10x64x1, S8192x10x64x1, S8192x10x64x1] S8192x10x64x3 3) (b : Fin 8192) (c' : Fin 10) (r : Fin 64) :
    concatenate S8192x10x64x3 3 [⟨S8192x10x64x1, x0⟩, ⟨S8192x10x64x1, x1⟩, ⟨S8192x10x64x1, x2⟩] h (ix4 b c' r (1 : Fin 3))
      = x1 (ix4 b c' r (0 : Fin 1)) := by
  refine concatenate_apply_piece (t := S8192x10x64x3) 3 [⟨S8192x10x64x1, x0⟩, ⟨S8192x10x64x1, x1⟩, ⟨S8192x10x64x1, x2⟩]
    h (ix4 b c' r (1 : Fin 3)) 1 (by simp) S8192x10x64x1 x1 rfl rfl 1 rfl
    (ix4 b c' r (0 : Fin 1)) ?_ rfl
  intro q hq
  match q with
  | ⟨0, _⟩ => rfl
  | ⟨1, _⟩ => rfl
  | ⟨2, _⟩ => rfl
  | ⟨3, _⟩ => exact absurd rfl hq

/-- … at component 2: the third column. -/
theorem cat_apply2 {α : Type} (x0 x1 x2 : S8192x10x64x1.Idx → α)
    (h : Shape.Concatenates [S8192x10x64x1, S8192x10x64x1, S8192x10x64x1] S8192x10x64x3 3) (b : Fin 8192) (c' : Fin 10) (r : Fin 64) :
    concatenate S8192x10x64x3 3 [⟨S8192x10x64x1, x0⟩, ⟨S8192x10x64x1, x1⟩, ⟨S8192x10x64x1, x2⟩] h (ix4 b c' r (2 : Fin 3))
      = x2 (ix4 b c' r (0 : Fin 1)) := by
  refine concatenate_apply_piece (t := S8192x10x64x3) 3 [⟨S8192x10x64x1, x0⟩, ⟨S8192x10x64x1, x1⟩, ⟨S8192x10x64x1, x2⟩]
    h (ix4 b c' r (2 : Fin 3)) 2 (by simp) S8192x10x64x1 x2 rfl rfl 2 rfl
    (ix4 b c' r (0 : Fin 1)) ?_ rfl
  intro q hq
  match q with
  | ⟨0, _⟩ => rfl
  | ⟨1, _⟩ => rfl
  | ⟨2, _⟩ => rfl
  | ⟨3, _⟩ => exact absurd rfl hq

/-! ## The three-index gather at (b, c', r) -/

/-- Every operand axis of the three-index gather is collapsed: none is kept. -/
theorem not_kept (a : Fin 3) : a ∉ gather_S10x64x65536_S8192x10x64x3_S8192x10x64_n_012_n_n_012_3_111.sKept := by
  have hall : ∀ q : Fin 3, q ∈ [(0 : Fin 3), 1, 2] := by decide
  exact fun h => ((GatherDims.mem_sKept gather_S10x64x65536_S8192x10x64x3_S8192x10x64_n_012_n_n_012_3_111 a).mp h).1 (hall a)

/-- The three-index gather read at (b, c', r): when the three components of the index vector there, read signed,
    are positions (n0, n1, n2) of the table, the result is the table's entry at (n0, n1, n2). -/
theorem gather3_apply {α : Type} (x : S10x64x65536.Idx → α) (idx : IVec S8192x10x64x3 32)
    (b : Fin 8192) (c' : Fin 10) (r : Fin 64) (n0 : Fin 10) (n1 : Fin 64) (n2 : Fin 65536)
    (h0 : (idx (ix4 b c' r (0 : Fin 3))).toInt = (n0.val : ℤ))
    (h1 : (idx (ix4 b c' r (1 : Fin 3))).toInt = (n1.val : ℤ))
    (h2 : (idx (ix4 b c' r (2 : Fin 3))).toInt = (n2.val : ℤ)) :
    Host.gather gather_S10x64x65536_S8192x10x64x3_S8192x10x64_n_012_n_n_012_3_111 x idx (ix3 b c' r) = x (ix3 n0 n1 n2) := by
  unfold Host.gather
  congr 1
  funext a
  refine Fin.ext ?_
  match a with
  | ⟨0, _⟩ =>
    show gather_S10x64x65536_S8192x10x64x3_S8192x10x64_n_012_n_n_012_3_111.start (ix3 b c' r) idx 0 + gather_S10x64x65536_S8192x10x64x3_S8192x10x64_n_012_n_n_012_3_111.batchCoord (ix3 b c' r) 0 + gather_S10x64x65536_S8192x10x64x3_S8192x10x64_n_012_n_n_012_3_111.offCoord (ix3 b c' r) 0 = n0.val
    rw [GatherDims.batchCoord_eq_zero _ _ _ List.not_mem_nil, GatherDims.offCoord_eq_zero _ _ _ (not_kept 0)]
    simp only [Nat.add_zero]
    unfold GatherDims.start
    have hm : (0 : Fin 3) ∈ gather_S10x64x65536_S8192x10x64x3_S8192x10x64_n_012_n_n_012_3_111.startIndexMap := by show (0 : Fin 3) ∈ [(0 : Fin 3), 1, 2]; decide
    rw [dif_pos hm]
    have hsi : gather_S10x64x65536_S8192x10x64x3_S8192x10x64_n_012_n_n_012_3_111.siIdx (ix3 b c' r) ⟨List.idxOf (0 : Fin 3) gather_S10x64x65536_S8192x10x64x3_S8192x10x64_n_012_n_n_012_3_111.startIndexMap, List.idxOf_lt_length_iff.2 hm⟩
        = ix4 b c' r (0 : Fin 3) := by
      funext q; refine Fin.ext ?_
      match q with
      | ⟨0, _⟩ => rfl
      | ⟨1, _⟩ => rfl
      | ⟨2, _⟩ => rfl
      | ⟨3, _⟩ => rfl
    rw [hsi, h0]
    show min ((n0.val : ℤ)).toNat (10 - 1) = n0.val
    have := n0.isLt
    omega
  | ⟨1, _⟩ =>
    show gather_S10x64x65536_S8192x10x64x3_S8192x10x64_n_012_n_n_012_3_111.start (ix3 b c' r) idx 1 + gather_S10x64x65536_S8192x10x64x3_S8192x10x64_n_012_n_n_012_3_111.batchCoord (ix3 b c' r) 1 + gather_S10x64x65536_S8192x10x64x3_S8192x10x64_n_012_n_n_012_3_111.offCoord (ix3 b c' r) 1 = n1.val
    rw [GatherDims.batchCoord_eq_zero _ _ _ List.not_mem_nil, GatherDims.offCoord_eq_zero _ _ _ (not_kept 1)]
    simp only [Nat.add_zero]
    unfold GatherDims.start
    have hm : (1 : Fin 3) ∈ gather_S10x64x65536_S8192x10x64x3_S8192x10x64_n_012_n_n_012_3_111.startIndexMap := by show (1 : Fin 3) ∈ [(0 : Fin 3), 1, 2]; decide
    rw [dif_pos hm]
    have hsi : gather_S10x64x65536_S8192x10x64x3_S8192x10x64_n_012_n_n_012_3_111.siIdx (ix3 b c' r) ⟨List.idxOf (1 : Fin 3) gather_S10x64x65536_S8192x10x64x3_S8192x10x64_n_012_n_n_012_3_111.startIndexMap, List.idxOf_lt_length_iff.2 hm⟩
        = ix4 b c' r (1 : Fin 3) := by
      funext q; refine Fin.ext ?_
      match q with
      | ⟨0, _⟩ => rfl
      | ⟨1, _⟩ => rfl
      | ⟨2, _⟩ => rfl
      | ⟨3, _⟩ => rfl
    rw [hsi, h1]
    show min ((n1.val : ℤ)).toNat (64 - 1) = n1.val
    have := n1.isLt
    omega
  | ⟨2, _⟩ =>
    show gather_S10x64x65536_S8192x10x64x3_S8192x10x64_n_012_n_n_012_3_111.start (ix3 b c' r) idx 2 + gather_S10x64x65536_S8192x10x64x3_S8192x10x64_n_012_n_n_012_3_111.batchCoord (ix3 b c' r) 2 + gather_S10x64x65536_S8192x10x64x3_S8192x10x64_n_012_n_n_012_3_111.offCoord (ix3 b c' r) 2 = n2.val
    rw [GatherDims.batchCoord_eq_zero _ _ _ List.not_mem_nil, GatherDims.offCoord_eq_zero _ _ _ (not_kept 2)]
    simp only [Nat.add_zero]
    unfold GatherDims.start
    have hm : (2 : Fin 3) ∈ gather_S10x64x65536_S8192x10x64x3_S8192x10x64_n_012_n_n_012_3_111.startIndexMap := by show (2 : Fin 3) ∈ [(0 : Fin 3), 1, 2]; decide
    rw [dif_pos hm]
    have hsi : gather_S10x64x65536_S8192x10x64x3_S8192x10x64_n_012_n_n_012_3_111.siIdx (ix3 b c' r) ⟨List.idxOf (2 : Fin 3) gather_S10x64x65536_S8192x10x64x3_S8192x10x64_n_012_n_n_012_3_111.startIndexMap, List.idxOf_lt_length_iff.2 hm⟩
        = ix4 b c' r (2 : Fin 3) := by
      funext q; refine Fin.ext ?_
      match q with
      | ⟨0, _⟩ => rfl
      | ⟨1, _⟩ => rfl
      | ⟨2, _⟩ => rfl
      | ⟨3, _⟩ => rfl
    rw [hsi, h2]
    show min ((n2.val : ℤ)).toNat (65536 - 1) = n2.val
    have := n2.isLt
    omega

/-! ## The result -/

/-- The reference's result is the membership count: at (b, c') the host sum over the memory axis, from zero, of the
    table gathered at (c', r, address of (b, c', r)). -/
theorem ref_eq (m : (ℓ : Loc nD τ sig) → Buf (Elt Ideal) ℓ) (c : Dev nD)
    (hlt : ∀ j, (addr (m ((c.tc : Thread nD τ).loc main_arg0)) (m ((c.tc : Thread nD τ).loc main_arg1)) j).toNat < 65536) :
    Cert.ReferenceIdeal.RunP.res_main_v43 (F := Ideal) m c = G (m ((c.tc : Thread nD τ).loc main_arg0)) (m ((c.tc : Thread nD τ).loc main_arg1)) (m ((c.tc : Thread nD τ).loc main_arg2)) := by
  funext i
  obtain ⟨b, c', rfl⟩ : ∃ b c', i = ix2 b c' := ⟨i 0, i 1, eq_ix2 i⟩
  have hred : S8192x10x64.Reduces [2] S8192x10 := by decide
  change _ = response _ _ _ b c'
  unfold Cert.ReferenceIdeal.RunP.res_main_v43 response
  rw [hostReduceAdd_apply, Ideal.hostReduceAdd_single reducesTo_S8192x10x64_S8192x10_d2 hred]
  rw [constant_apply, Ideal.ofBits_zero_f32, zero_add]
  show (∑ k : Fin 64, (_ : EReal)) = ∑ r : Fin 64, (_ : EReal)
  refine Finset.sum_congr rfl (fun (r : Fin 64) _ => ?_)
  have hl : hred.lift (ix2 b c') r = ix3 b c' r := by
    funext a; refine Fin.ext ?_
    match a with
    | ⟨0, _⟩ => rfl
    | ⟨1, _⟩ => rfl
    | ⟨2, _⟩ => rfl
  rw [hl]
  refine gather3_apply _ _ b c' r c' r _ ?_ ?_ ?_
  · rw [cat_apply0, v38_apply]
    exact StableHlo.Predicate.toInt_ofNat_small _ (by have := c'.isLt; omega)
  · rw [cat_apply1, v39_apply]
    exact StableHlo.Predicate.toInt_ofNat_small _ (by have := r.isLt; omega)
  · rw [cat_apply2, v40_apply m c b c' r (hlt _)]
    exact toInt_pos _ (hlt _)

end Cert.RamLookup

end
-- ==== Proof.PreBits.lean ====
/-
  The sample conjunct of the printed precondition, read back.

  The precondition is the conjunction of two tests, each an "all" over an array: every table entry is finite, and
  every sample entry equals 0 or equals 1. Here only the second is decoded: when the precondition is 1, the
  conjunction's second operand is 1; an "all" (a reduction by "and" from 1 over both axes) that is 1 had a 1 at every
  index; at one index the "or" of the two equality tests is 1 exactly when one of them is; and an equality test against a
  broadcast scalar constant is 1 exactly when the entry is that constant. The float family plays no part: the float
  conjunct is dropped unread.
-/
import proofs.«400448_j68401649156855_1_alg».proof.Pre_finite_inputs
import Idealize.ShloMosaic.Lib.ReduceAll
import Idealize.ShloMosaic.Lib.StableHlo.Predicate
import Idealize.ShloMosaic.Lib.ValueIdx

namespace Cert.RamLookup

open Idealize.ShloMosaic

variable [Cert.Pre_finite_inputs.Facts]

/-- Under the precondition every sample entry is a bit: the word 0 or the word 1. -/
theorem bits_of_pre {F : FTy → Type} [FloatOps F] (s : IVec Cert.Pre_finite_inputs.S8192x1024 32)
    (tm : IVec Cert.Pre_finite_inputs.S10x1024 32) (table : FVec F Cert.Pre_finite_inputs.S10x64x65536 .f32)
    (h : Cert.Pre_finite_inputs.fn (F := F) s tm table = fun _ => 1#1) : ∀ i, s i = 0#32 ∨ s i = 1#32 := by
  intro i
  -- the precondition at its one index: the conjunction of the two "all"s is 1, so the second is
  have h0 := congrFun h ValueIdx.ix0
  dsimp only [Cert.Pre_finite_inputs.fn, andi] at h0
  obtain ⟨-, h9⟩ := IntOp.andi_eq_one.1 h0
  -- the rank-0 shape has one index, the empty tuple; an "all" that is 1 had a 1 at every index, in particular at i
  haveI : Subsingleton Cert.Pre_finite_inputs.S_.Idx := ⟨fun a b => funext fun d => d.elim0⟩
  have hi := Host.reduce_andi_all _ _ _ _ _ h9 i
  dsimp only [ori, cmpi] at hi
  -- the "or" of the two equality tests is 1: one of them is, and it says the entry is the broadcast constant
  rcases IntOp.ori_eq_one.1 hi with h5 | h7
  · exact Or.inl (StableHlo.Predicate.cmpi_eq_iff.1 h5)
  · exact Or.inr (StableHlo.Predicate.cmpi_eq_iff.1 h7)

end Cert.RamLookup
-- ==== Proof.AddrRange.lean ====
/-
  The packed address is below 2^16.

  Every entry of the regrouped bits is an entry of the sample array, hence the word 0 or 1. The shift amount at
  position t of a tuple is 15 - t, below the word width, so the shifted entry is 0 or 2^(15 - t). The address is the word
  sum of the sixteen shifted entries of its tuple; the sum of the bounds 2^(15 - t), t = 0 … 15, is 2^16 - 1, far below
  2^32, so the word sum does not wrap and is itself at most 2^16 - 1.
-/
import proofs.«400448_j68401649156855_1_alg».proof.Proof.Spec
import Idealize.ShloMosaic.PureOps.Reduce
import Idealize.ShloMosaic.Lib.StableHlo.Predicate

noncomputable section

namespace Cert.RamLookup

open Idealize.ShloMosaic Idealize.ShloMosaic.ValueIdx
open Cert.ReferenceIdeal

variable [Cert.ReferenceIdeal.Facts]
open Cert.ReferenceIdeal.Facts₀

/-- Every regrouped entry is an entry of the sample array: a bit. -/
theorem tuples_bit {s : IVec S8192x1024 32} (hs : IsBits s) (tm : IVec S10x1024 32) (i : S8192x10x64x16.Idx) :
    tuples s tm i = 0#32 ∨ tuples s tm i = 1#32 :=
  hs _

/-- The shift amount at position t of a tuple, as the program computes it: 15 + (-1) · t. -/
theorem shifts_apply (b : Fin 8192) (c : Fin 10) (r : Fin 64) (t : Fin 16) :
    shifts (ix4 b c r t) = 15#32 + 4294967295#32 * BitVec.ofNat 32 t.val := rfl

/-- A bit shifted left by 15 - t is at most 2^(15 - t). -/
theorem shl_bit_le : ∀ t : Fin 16,
    (IntOp.shli .host 0#32 (15#32 + 4294967295#32 * BitVec.ofNat 32 t.val)).toNat ≤ 2 ^ (15 - t.val)
      ∧ (IntOp.shli .host 1#32 (15#32 + 4294967295#32 * BitVec.ofNat 32 t.val)).toNat ≤ 2 ^ (15 - t.val) := by
  decide

/-- Entry (b, c, r, t) of the shifted array is at most 2^(15 - t). -/
theorem shifted_le {s : IVec S8192x1024 32} (hs : IsBits s) (tm : IVec S10x1024 32)
    (b : Fin 8192) (c : Fin 10) (r : Fin 64) (t : Fin 16) :
    (Host.shli (tuples s tm) shifts (ix4 b c r t)).toNat ≤ 2 ^ (15 - t.val) := by
  show (IntOp.shli .host (tuples s tm (ix4 b c r t)) (shifts (ix4 b c r t))).toNat ≤ _
  rw [shifts_apply]
  rcases tuples_bit hs tm (ix4 b c r t) with h | h <;> rw [h]
  · exact (shl_bit_le t).1
  · exact (shl_bit_le t).2

/-- The sixteen bounds add up to 2^16 - 1. -/
theorem sum_bounds : ∑ t : Fin 16, 2 ^ (15 - t.val) = 65535 := by decide

/-- A word sum of sixteen entries, entry t at most 2^(15 - t), does not wrap and is below 2^16. -/
theorem fold_lt (f : Fin 16 → BitVec 32) (hf : ∀ t : Fin 16, (f t).toNat ≤ 2 ^ (15 - t.val)) :
    (Finset.fold IntOp.addi 0#32 f (Finset.univ : Finset (Fin 16))).toNat < 65536 := by
  have hle : ∑ t : Fin 16, (f t).toNat ≤ 65535 := sum_bounds ▸ Finset.sum_le_sum fun t _ => hf t
  rw [StableHlo.Predicate.toNat_fold_addi _ _ (by omega)]
  omega

theorem addr_lt {s : IVec Cert.ReferenceIdeal.S8192x1024 32} (hs : IsBits s) (tm : IVec Cert.ReferenceIdeal.S10x1024 32)
    (j : Cert.ReferenceIdeal.S8192x10x64.Idx) : (addr s tm j).toNat < 65536 := by
  have hred : S8192x10x64x16.Reduces [3] S8192x10x64 := by decide
  unfold addr
  rw [Host.reduce_eq_fold_single IntOp.addi _ _ reducesTo_S8192x10x64x16_S8192x10x64_d3 hred h_S_ j]
  -- the fiber over j: its sixteen entries, each bounded
  have hterm : ∀ t : Fin 16, ((Host.shli (tuples s tm) shifts ∘ hred.lift j) t).toNat ≤ 2 ^ (15 - t.val) := by
    intro t
    have e : hred.lift j t = ix4 (j 0) (j 1) (j 2) t := by
      funext a; match a with | ⟨0, _⟩ => rfl | ⟨1, _⟩ => rfl | ⟨2, _⟩ => rfl | ⟨3, _⟩ => rfl
    show (Host.shli (tuples s tm) shifts (hred.lift j t)).toNat ≤ _
    rw [e]
    exact shifted_le hs tm _ _ _ t
  exact fold_lt _ hterm

end Cert.RamLookup

end
-- ==== Proof.HostPrefix.lean ====
/-
  The host operations around the lookup region, read at an index.

  Before the region the host packs the addresses (the chain of Spec.lean's `addr`, array [sample, class, memory]) and
  transposes them to [class, memory, sample]; it regroups the table's last axis of 65536 entries into 256 rows of 256
  and changes its format, which on the extended reals is the identity. After the region it drops the result's unit
  axis and transposes [class, sample] to [sample, class].

  Read at an index these say: the address array the region is entered with holds, at (class, memory, sample), the
  packed address of (sample, class, memory); the table it is entered with holds, at (class, memory, row, lane), the
  argument's entry at (class, memory, 256 * row + lane); and the final result at (sample, class) is the region's
  result at (class, 0, sample).
-/
import proofs.«400448_j68401649156855_1_alg».proof.Proof.Gen.KernelIdeal.Frame
import proofs.«400448_j68401649156855_1_alg».proof.Proof.Gen.ReferenceIdeal
import proofs.«400448_j68401649156855_1_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.RamLookup

open Idealize.ShloMosaic Idealize.ShloMosaic.ValueIdx Idealize.ShloMosaic.TcCoe Cert.KernelIdeal Cert.KernelIdeal.Gen

/-! ## Before the region -/

/-- A [8192, 10, 64] array transposed by [1, 2, 0] to [10, 64, 8192]: the entry at (class, memory, sample) is the
    operand's entry at (sample, class, memory). -/
theorem transpose_120_apply {α : Type} (x : S8192x10x64.Idx → α) (cls : Fin 10) (r : Fin 64) (b : Fin 8192) :
    transpose S10x64x8192 [1, 2, 0] x transposes_S8192x10x64_S10x64x8192_1_2_0 (ix3 cls r b) = x (ix3 b cls r) :=
  transpose_apply _ x _ _ _ fun a => match a with | ⟨0, _⟩ => rfl | ⟨1, _⟩ => rfl | ⟨2, _⟩ => rfl

/-- A [10, 64, 65536] array regrouped as [10, 64, 256, 256]: the entry at (class, memory, row, lane) is the operand's
    entry at (class, memory, 256 * row + lane). -/
theorem regroup_apply {α : Type} (x : S10x64x65536.Idx → α) (cls : Fin 10) (r : Fin 64) (h l : Fin 256) :
    shapeCast S10x64x256x256 x shapeCasts_S10x64x65536_S10x64x256x256 (ix4 cls r h l)
      = x (ix3 cls r ⟨256 * h.val + l.val, by omega⟩) := by
  refine shapeCast_apply x _ _ _ ?_
  rw [Shape.rowMajor_val_three, Shape.rowMajor_val_four]
  show (cls.val * 64 + r.val) * 65536 + (256 * h.val + l.val) = ((cls.val * 64 + r.val) * 256 + h.val) * 256 + l.val
  omega

/-- The address array the region is entered with is the packed addresses, transposed to [class, memory, sample]: the
    host operations that write it are the chain of `addr` over the two integer arguments, then the transpose. -/
theorem V_v17_eq {F : FTy → Type} [FloatOps F] (m : (ℓ : Loc nD τ sig) → Buf (Elt F) ℓ) (c : Dev nD) :
    (V m c main_v17 : S10x64x8192.Idx → BitVec 32)
      = transpose S10x64x8192 [1, 2, 0]
          (addr (m ((c : Thread nD τ).loc main_arg0) : S8192x1024.Idx → BitVec 32)
            (m ((c : Thread nD τ).loc main_arg1) : S10x1024.Idx → BitVec 32))
          transposes_S8192x10x64_S10x64x8192_1_2_0 := by
  dsimp only [Gen.V, Gen.V0]
  simp only [Gen.hostOps0, List.flatten_cons, List.flatten_nil, List.append_nil, List.cons_append, List.nil_append]
  after_results_simp
  rfl

/-- At (class, memory, sample) the region's address array holds the packed address of (sample, class, memory). -/
theorem V_v17_apply {F : FTy → Type} [FloatOps F] (m : (ℓ : Loc nD τ sig) → Buf (Elt F) ℓ) (c : Dev nD)
    (cls : Fin 10) (r : Fin 64) (b : Fin 8192) :
    (V m c main_v17 : S10x64x8192.Idx → BitVec 32) (ix3 cls r b)
      = addr (m ((c : Thread nD τ).loc main_arg0)) (m ((c : Thread nD τ).loc main_arg1)) (ix3 b cls r) := by
  rw [V_v17_eq]
  exact transpose_120_apply _ cls r b

/-- The table the region is entered with is the table argument with its last axis regrouped: on the extended reals
    the change of format after the regrouping is the identity. -/
theorem V_v19_eq (m : (ℓ : Loc nD τ sig) → Buf (Elt Ideal) ℓ) (c : Dev nD) :
    (V m c main_v19 : S10x64x256x256.Idx → EReal)
      = shapeCast S10x64x256x256 (m ((c : Thread nD τ).loc main_arg2) : S10x64x65536.Idx → EReal)
          shapeCasts_S10x64x65536_S10x64x256x256 := by
  dsimp only [Gen.V, Gen.V0]
  simp only [Gen.hostOps0, List.flatten_cons, List.flatten_nil, List.append_nil, List.cons_append, List.nil_append]
  after_results_simp
  rfl

/-- At (class, memory, row, lane) the region's table holds the argument's entry at (class, memory, 256 * row + lane). -/
theorem V_v19_apply (m : (ℓ : Loc nD τ sig) → Buf (Elt Ideal) ℓ) (c : Dev nD)
    (cls : Fin 10) (r : Fin 64) (h l : Fin 256) :
    (V m c main_v19 : S10x64x256x256.Idx → EReal) (ix4 cls r h l)
      = (m ((c : Thread nD τ).loc main_arg2) : S10x64x65536.Idx → EReal) (ix3 cls r ⟨256 * h.val + l.val, by omega⟩) := by
  rw [V_v19_eq]
  exact regroup_apply _ cls r h l

/-! ## After the region -/

/-- Dropping the unit axis of a [10, 1, 8192] array and transposing to [8192, 10]: the entry at (sample, class) is the
    operand's entry at (class, 0, sample). -/
theorem tail_index {α : Type} (A : S10x1x8192.Idx → α) (b : Fin 8192) (cls : Fin 10) :
    transpose S8192x10 [1, 0] (shapeCast S10x8192 A shapeCasts_S10x1x8192_S10x8192) transposes_S10x8192_S8192x10_1_0 (ix2 b cls)
      = A (ix3 cls 0 b) := by
  rw [transpose_ix2_apply]
  refine shapeCast_apply A _ _ _ ?_
  rw [Shape.rowMajor_val_three, Shape.rowMajor_val_two]
  show (cls.val * 1 + 0) * 8192 + b.val = cls.val * 8192 + b.val
  omega

end Cert.RamLookup

end
-- ==== Proof.KernelTail.lean ====
/-
  What @main does with the kernel's result: after the call it drops the unit axis of the [class, 1, sample] array and
  transposes to [sample, class]. The frame run, re-posted with the result buffer named.
-/
import proofs.«400448_j68401649156855_1_alg».proof.Proof.Gen.KernelIdeal.Frame
import Idealize.ShloMosaic.Lib.Pipeline.Value
import Idealize.ShloMosaic.Lib.StableHlo.Run

set_option maxRecDepth 16384

noncomputable section

namespace Cert.RamLookup

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The result buffer after the two host operations that follow the call: the kernel's array regrouped and transposed. -/
theorem tail_v22 (c : Dev nD) :
    Pipeline.afterTail₀ cfgs (dats m) 0 (V0 m) [hostOps1] c main_v22
      = transpose S8192x10 [1, 0] (shapeCast S10x8192 ((dats m 0 c).arrAt 2 cfg0.N) shapeCasts_S10x1x8192_S10x8192)
          transposes_S10x8192_S8192x10_1_0 := by
  unfold Pipeline.afterTail₀
  show StableHlo.after hostOps1 _ (Proc.devRef .tc main_v22) = _
  after_results
  have e : Pipeline.withArrays (cfgs 0).spec c (V0 m c) (fun w => (dats m 0 c).arrAt w (cfgs 0).N)
      (Proc.devRef .tc main_v20) = (dats m 0 c).arrAt 2 cfg0.N :=
    Pipeline.withArrays_arr spec0 launch0.win.arr_inj c _ _ 2
  rw [e]
  rfl

/-- The frame run with the result buffer named: after @main the result is the kernel's array regrouped and
    transposed, and the three arguments are as launched. -/
theorem run_named : θ_run defs (onTc (τ := τ) (main (F := F))) ⟨m, fun _ => 0, ρ⟩ (fun r => ∀ c : Dev nD,
      r.2.mem ((c.tc : Thread nD τ).loc main_v22)
        = transpose S8192x10 [1, 0] (shapeCast S10x8192 ((dats m 0 c).arrAt 2 cfg0.N) shapeCasts_S10x1x8192_S10x8192)
            transposes_S10x8192_S8192x10_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v22 (Pipeline.mem_restRefs_of main_v22 (by decide) (by decide))).trans (tail_v22 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.RamLookup

end
-- ==== Proof.Payload.lean ====
import proofs.«400448_j68401649156855_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-!
  One trip of the lookup loop, read at a row.

  A trip takes 1024 address words `a`, splits each into a high part `a >> 8` and a low part `a & 255`, builds the
  two one-hot rows `[hi = k]` and `[lo = j]` over 256 lanes, multiplies the first into the 256 × 256 table, and sums
  the product against the second over the lanes. For an address below 65536 the high part is `a / 256`, the low part
  `a % 256`, both below 256, so each one-hot row has exactly one entry equal to 1: the double sum collapses to the
  table's entry at `(a / 256, a % 256)`. On the extended reals `0 * x = 0` and `1 * x = x` hold for every `x`, the
  infinities included, so nothing is asked of the table's entries.
-/

noncomputable section

namespace Cert.RamLookup

open Idealize.ShloMosaic Idealize.ShloMosaic.ValueIdx Cert.KernelIdeal Cert.KernelIdeal.Gen
open scoped BigOperators

/-! ## Words -/

/-- For a word below 65536 (so non-negative as a signed word) the arithmetic shift right by 8 is division by 256. -/
theorem shr8_toNat (a : BitVec 32) (h : a.toNat < 65536) :
    (IntOp.shrsi .vector a 8#32).toNat = a.toNat / 256 := by
  unfold IntOp.shrsi
  rw [if_pos (by decide)]
  have hm : a.msb = false := by
    rw [BitVec.msb_eq_false_iff_two_mul_lt]; omega
  rw [BitVec.toNat_sshiftRight'_of_msb_false hm, Nat.shiftRight_eq_div_pow]
  rfl

/-- Masking with 255 = 2⁸ − 1 is the remainder modulo 256. -/
theorem and255_toNat (a : BitVec 32) : (IntOp.andi a 255#32).toNat = a.toNat % 256 := by
  unfold IntOp.andi
  rw [BitVec.toNat_and]
  exact Nat.and_two_pow_sub_one_eq_mod a.toNat 8

/-- A word equals the numeral of a natural below 256 exactly when its value is that natural. -/
theorem eq_ofNat_iff (x : BitVec 32) (k : Nat) (hk : k < 256) : x = BitVec.ofNat 32 k ↔ x.toNat = k := by
  constructor
  · intro h; rw [h, BitVec.toNat_ofNat]; omega
  · intro h; apply BitVec.eq_of_toNat_eq; rw [BitVec.toNat_ofNat, h]; omega

/-- An equality test, widened to a word and converted to a float, is 1 where the words agree and 0 elsewhere. -/
theorem onehot_word (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  unfold IntOp.cmpi
  have h1 : ((BitVec.ofBool true).setWidth 32).toInt = 1 := by decide
  have h0 : ((BitVec.ofBool false).setWidth 32).toInt = 0 := by decide
  by_cases hxy : x = y
  · rw [if_pos hxy]
    have : (x == y) = true := by simp [hxy]
    simp only [this, h1]
    norm_num
  · rw [if_neg hxy]
    have : (x == y) = false := by simp [hxy]
    simp only [this, h0]
    norm_num

/-! ## Layout operations at an index -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- A column `[a, 1]` broadcast along the lanes to `[a, b]` reads, at `(i, k)`, the operand at `(i, 0)`. -/
theorem broadcastTo_a1_ab_apply {a b : ℕ} (x : (⟨2, ![a, 1]⟩ : Shape).Idx → α)
    (h : (⟨2, ![a, 1]⟩ : Shape).Broadcasts ⟨2, ![a, b]⟩) (i : Fin a) (k : Fin b) :
    broadcastTo ⟨2, ![a, b]⟩ x h (ix2 i k) = x (ix2 i (0 : Fin 1)) :=
  broadcastTo_apply x h _ _ fun c => match c with
    | ⟨0, _⟩ => by
      show i.val = if a = 1 then 0 else i.val
      split
      · have := i.isLt; omega
      · rfl
    | ⟨1, _⟩ => by
      show (0 : ℕ) = if (1 : ℕ) = 1 then 0 else k.val
      rw [if_pos rfl]

/-- The lane counter of an `[a, b]` tile reads its lane coordinate. -/
theorem iota_lane_apply {a b : ℕ} (κ : Kind) (h : (⟨2, ![a, b]⟩ : Shape).Iotas κ 32 [1]) (i : Fin a) (k : Fin b) :
    iota κ ⟨2, ![a, b]⟩ 32 [1] h (ix2 i k) = BitVec.ofNat 32 k.val :=
  iota_single_apply κ _ 32 1 h _

end Layout

variable [Cert.KernelIdeal.Facts]

/-! ## The product's operand indices -/

theorem lhs_dot_0 (j : S1024x256.Idx) (k : dot_S1024x256_S256x256_S1024x256_1_0_0_1_n_n.contr.Idx) :
    (dot_S1024x256_S256x256_S1024x256_1_0_0_1_n_n.lhsIdx j k 0 : ℕ) = j 0 := by
  simp [DotDims.lhsIdx, dot_S1024x256_S256x256_S1024x256_1_0_0_1_n_n]; rfl
theorem lhs_dot_1 (j : S1024x256.Idx) (k : dot_S1024x256_S256x256_S1024x256_1_0_0_1_n_n.contr.Idx) :
    (dot_S1024x256_S256x256_S1024x256_1_0_0_1_n_n.lhsIdx j k 1 : ℕ) = k ⟨0, by decide⟩ := by
  simp [DotDims.lhsIdx, dot_S1024x256_S256x256_S1024x256_1_0_0_1_n_n]; rfl
theorem rhs_dot_0 (j : S1024x256.Idx) (k : dot_S1024x256_S256x256_S1024x256_1_0_0_1_n_n.contr.Idx) :
    (dot_S1024x256_S256x256_S1024x256_1_0_0_1_n_n.rhsIdx j k 0 : ℕ) = k ⟨0, by decide⟩ := by
  simp [DotDims.rhsIdx, dot_S1024x256_S256x256_S1024x256_1_0_0_1_n_n]; rfl
theorem rhs_dot_1 (j : S1024x256.Idx) (k : dot_S1024x256_S256x256_S1024x256_1_0_0_1_n_n.contr.Idx) :
    (dot_S1024x256_S256x256_S1024x256_1_0_0_1_n_n.rhsIdx j k 1 : ℕ) = j 1 := by
  simp [DotDims.rhsIdx, dot_S1024x256_S256x256_S1024x256_1_0_0_1_n_n]; rfl

/-- The product into a zero accumulator, read at `(p, j)`: the sum over the contracted coordinate. -/
theorem matmul_ix (A : FVec Ideal S1024x256 .bf16) (B : FVec Ideal S256x256 .bf16) (p : Fin 1024) (j : Fin 256) :
    matmul dot_S1024x256_S256x256_S1024x256_1_0_0_1_n_n none A B (constant (F := Ideal) S1024x256 .f32 0x00000000#32) (ix2 p j)
      = ∑ c : Fin 256, A (ix2 p c) * B (ix2 c j) := by
  show FloatOps.matmul _ none A B _ (ix2 p j) = _
  rw [Ideal.matmul_constant_zero_apply,
    ← Equiv.sum_comp (contrEquiv1 dot_S1024x256_S256x256_S1024x256_1_0_0_1_n_n 256 rfl rfl).symm]
  refine Finset.sum_congr rfl fun c _ => ?_
  have hc := contrEquiv1_symm_val dot_S1024x256_S256x256_S1024x256_1_0_0_1_n_n 256 rfl rfl c
  have hl : dot_S1024x256_S256x256_S1024x256_1_0_0_1_n_n.lhsIdx (ix2 p j) ((contrEquiv1 _ 256 rfl rfl).symm c) = ix2 p c := by
    funext ax; apply Fin.ext
    match ax with
    | ⟨0, _⟩ => exact lhs_dot_0 _ _
    | ⟨1, _⟩ => exact (lhs_dot_1 _ _).trans hc
  have hr : dot_S1024x256_S256x256_S1024x256_1_0_0_1_n_n.rhsIdx (ix2 p j) ((contrEquiv1 _ 256 rfl rfl).symm c) = ix2 c j := by
    funext ax; apply Fin.ext
    match ax with
    | ⟨0, _⟩ => exact (rhs_dot_0 _ _).trans hc
    | ⟨1, _⟩ => exact rhs_dot_1 _ _
  rw [hl, hr]

/-- The lane sum read at `p`: the sum over the lane coordinate. -/
theorem lanesum_ix (src : FVec Ideal S1024x256 .f32) (p : Fin 1024) :
    multiReduction (F := Ideal) .add [1] S1024 src 0x00000000#32 Facts₀.reduces_S1024x256_S1024 (.inl rfl) rfl (ix1 p)
      = ∑ k : Fin 256, src (ix2 p k) := by
  refine (Ideal.multiReduction_add_single src _ Facts₀.reduces_S1024x256_S1024 _ _ (ix1 p)).trans ?_
  refine Finset.sum_congr rfl fun k _ => congrArg src ?_
  funext ax; apply Fin.ext
  match ax with
  | ⟨0, _⟩ => rfl
  | ⟨1, _⟩ => rfl

/-! ## The trip in stages -/

/-- The address words as a column, after a word operation `f` on each. -/
def col (f : BitVec 32 → BitVec 32 → BitVec 32) (c : BitVec 32) (v9 : Vec Ideal S1x1x1024 .i32) : IVec S1024x1 32 :=
  shapeCast S1024x1 (fun i => f (shapeCast S1024 v9 Facts₀.shapeCasts_S1x1x1024_S1024 i) (broadcast S1024 c i)) Facts₀.shapeCasts_S1024_S1024x1

/-- The column read at a row is the word operation on that row's address. -/
theorem col_ix (f : BitVec 32 → BitVec 32 → BitVec 32) (c : BitVec 32) (v9 : Vec Ideal S1x1x1024 .i32) (p : Fin 1024) :
    col f c v9 (ix2 p 0) = f (v9 (ix3 0 0 p)) c := by
  unfold col
  refine (shapeCast_a_a1_apply _ Facts₀.shapeCasts_S1024_S1024x1 p 0).trans ?_
  show f (shapeCast S1024 v9 Facts₀.shapeCasts_S1x1x1024_S1024 (ix1 p)) c = _
  exact congrArg (f · c) (shapeCast_11a_a_apply v9 Facts₀.shapeCasts_S1x1x1024_S1024 p)

/-- The one-hot rows of a column of words: the column against the lane counter. -/
def onehot (w : IVec S1024x1 32) : FVec Ideal S1024x256 .f32 :=
  sitofp .f32 (extui 32 (cmpi .eq (broadcastTo S1024x256 w Facts₀.broadcasts_S1024x1_S1024x256)
    (iota .tc S1024x256 32 [1] Facts₀.iota_S1024x256_d1_w32)) Facts₀.natLt_1_32)

/-- A one-hot row at lane `k` is 1 where the row's word is `k`, else 0. -/
theorem onehot_ix (w : IVec S1024x1 32) (p : Fin 1024) (k : Fin 256) :
    onehot w (ix2 p k) = if (w (ix2 p 0)).toNat = k.val then 1 else 0 := by
  unfold onehot
  show FloatOps.sitofp (F := Ideal) .f32 ((IntOp.cmpi .eq (broadcastTo S1024x256 w Facts₀.broadcasts_S1024x1_S1024x256 (ix2 p k))
    (iota .tc S1024x256 32 [1] Facts₀.iota_S1024x256_d1_w32 (ix2 p k))).setWidth 32) = _
  rw [broadcastTo_a1_ab_apply w Facts₀.broadcasts_S1024x1_S1024x256 p k, iota_lane_apply .tc Facts₀.iota_S1024x256_d1_w32 p k, onehot_word]
  exact if_congr (eq_ofNat_iff _ _ k.isLt) rfl rfl

/-- The trip is: the accumulator plus the lane sum of (high one-hot rows × table) against the low one-hot rows. -/
theorem k0_pay2_stages (acc : FVec Ideal S1024x1 .f32) (v9 : Vec Ideal S1x1x1024 .i32) (v27 : Vec Ideal S1x1x256x256 .bf16) :
    k0_pay2 (F := Ideal) acc v9 v27
      = addf acc (shapeCast S1024x1
          (multiReduction (F := Ideal) .add [1] S1024
            (mulf
              (matmul dot_S1024x256_S256x256_S1024x256_1_0_0_1_n_n none
                (truncf .bf16 (onehot (col (IntOp.shrsi .vector) 8#32 v9)) Facts₀.bitsLt_bf16_f32)
                (shapeCast S256x256 v27 Facts₀.shapeCasts_S1x1x256x256_S256x256 : FVec Ideal S256x256 .bf16)
                (constant (F := Ideal) S1024x256 .f32 0x00000000#32))
              (onehot (col IntOp.andi 255#32 v9)))
            0x00000000#32 Facts₀.reduces_S1024x256_S1024 (.inl rfl) rfl)
          Facts₀.shapeCasts_S1024_S1024x1) := rfl

/-! ## The trip at a row -/

/-- ONE TRIP AT ROW `p`: the accumulator there plus the table's entry at the row's address, split as
    `(a / 256, a % 256)`. -/
theorem pay2_apply (acc : FVec Ideal S1024x1 .f32) (v9 : Vec Ideal S1x1x1024 .i32) (v27 : Vec Ideal S1x1x256x256 .bf16)
    (p : Fin 1024) (h : (v9 (ix3 0 0 p)).toNat < 65536) :
    k0_pay2 (F := Ideal) acc v9 v27 (ix2 p 0)
      = (acc (ix2 p 0) : EReal)
        + (v27 (ix4 0 0 ⟨(v9 (ix3 0 0 p)).toNat / 256, by omega⟩ ⟨(v9 (ix3 0 0 p)).toNat % 256, by omega⟩) : EReal) := by
  rw [k0_pay2_stages]
  show (acc (ix2 p 0) : EReal) + shapeCast S1024x1 _ Facts₀.shapeCasts_S1024_S1024x1 (ix2 p 0) = _
  refine congrArg ((acc (ix2 p 0) : EReal) + ·) ?_
  refine (shapeCast_a_a1_apply _ Facts₀.shapeCasts_S1024_S1024x1 p 0).trans ?_
  refine (lanesum_ix _ p).trans ?_
  -- the high and the low part of the row's address
  have hhi : (col (IntOp.shrsi .vector) 8#32 v9 (ix2 p 0)).toNat = (v9 (ix3 0 0 p)).toNat / 256 := by
    rw [col_ix]; exact shr8_toNat _ h
  have hlo : (col IntOp.andi 255#32 v9 (ix2 p 0)).toNat = (v9 (ix3 0 0 p)).toNat % 256 := by
    rw [col_ix]; exact and255_toNat _
  -- each lane's term: (the table's row a / 256 at lane k) × [k = a % 256]
  have hterm : ∀ k : Fin 256,
      mulf
          (matmul dot_S1024x256_S256x256_S1024x256_1_0_0_1_n_n none
            (truncf .bf16 (onehot (col (IntOp.shrsi .vector) 8#32 v9)) Facts₀.bitsLt_bf16_f32)
            (shapeCast S256x256 v27 Facts₀.shapeCasts_S1x1x256x256_S256x256 : FVec Ideal S256x256 .bf16)
            (constant (F := Ideal) S1024x256 .f32 0x00000000#32))
          (onehot (col IntOp.andi 255#32 v9)) (ix2 p k)
        = (v27 (ix4 0 0 ⟨(v9 (ix3 0 0 p)).toNat / 256, by omega⟩ k) : EReal)
          * (if k.val = (v9 (ix3 0 0 p)).toNat % 256 then 1 else 0) := by
    intro k
    show matmul (F := Ideal) dot_S1024x256_S256x256_S1024x256_1_0_0_1_n_n none _ _ _ (ix2 p k) * onehot _ (ix2 p k) = _
    rw [matmul_ix, onehot_ix, hlo]
    congr 1
    · -- the product's row: only the contracted coordinate a / 256 contributes
      rw [Finset.sum_eq_single (⟨(v9 (ix3 0 0 p)).toNat / 256, by omega⟩ : Fin 256)]
      · show onehot _ (ix2 p _) * shapeCast S256x256 v27 Facts₀.shapeCasts_S1x1x256x256_S256x256 (ix2 _ k) = _
        rw [onehot_ix, hhi, if_pos rfl, one_mul]
        exact shapeCast_11ab_ab_apply v27 Facts₀.shapeCasts_S1x1x256x256_S256x256 _ k
      · intro c _ hc
        show onehot _ (ix2 p c) * _ = 0
        rw [onehot_ix, hhi, if_neg (fun e => hc (Fin.ext e.symm)), zero_mul]
      · intro hn; exact absurd (Finset.mem_univ _) hn
    · exact if_congr eq_comm rfl rfl
  rw [Finset.sum_congr rfl fun k _ => hterm k,
    Finset.sum_eq_single (⟨(v9 (ix3 0 0 p)).toNat % 256, by omega⟩ : Fin 256)]
  · rw [if_pos rfl, mul_one]
  · intro k _ hk
    rw [if_neg (fun e => hk (Fin.ext e)), mul_zero]
  · intro hn; exact absurd (Finset.mem_univ _) hn

end Cert.RamLookup

end
-- ==== Proof.KernelLoop.lean ====
/-
  What one grid point of the kernel leaves in its output block, as a fold over the 64 memories.

  At a grid point the body holds a block of addresses `x0` ([1, 64, 1024]: memory `r`, lane `p`) and the class's
  table block `x1` ([1, 64, 256, 256]: memory `r`, high byte, low byte). Its loop carries a column of 1024 partial
  counts: trip `k` adds, for each lane, the table entry of memory `k` at that lane's address. The block written back
  is the column after the last trip, laid out as a row.
-/
import proofs.«400448_j68401649156855_1_alg».proof.Proof.Gen.KernelIdeal.Frame
import Idealize.ShloMosaic.Lib.WholeRead
import Idealize.ShloMosaic.Lib.Pipeline.Value
import Idealize.ShloMosaic.Lib.ValueIdx

set_option maxRecDepth 16384

noncomputable section

namespace Cert.RamLookup

open Idealize.ShloMosaic Idealize.ShloMosaic.ValueIdx Idealize.ShloMosaic.TcCoe Idealize.ShloMosaic.Tactic
open Idealize.SL Idealize.SL.Sem
open Cert.KernelIdeal Cert.KernelIdeal.Gen

variable {F : FTy → Type} [FloatOps F]

/-- Row `k` of the address block: the 1024 addresses memory `k` is asked at. -/
def addrRow (x0 : Vec F S1x64x1024 .i32) (k : Fin k0_t1_loop.trips) : Vec F S1x1x1024 .i32 :=
  fun y => x0 ((Rect.unit (s := S1x64x1024) (k0_off1 k) S1x1x1024.size (k0_off1_inb k)).toLoadRect.idx y)

/-- Memory `k`'s table, high byte by low byte. -/
def tableRow (x1 : Vec F S1x64x256x256 .bf16) (k : Fin k0_t1_loop.trips) : Vec F S1x1x256x256 .bf16 :=
  fun y => x1 ((Rect.unit (s := S1x64x256x256) (k0_off2 k) S1x1x256x256.size (k0_off2_inb k)).toLoadRect.idx y)

/-- One trip of the loop, from whole staging buffers holding `x0` and `x1`: the trip's arithmetic of the carried
    column, the trip's address row and the trip's table. -/
theorem tripR_eq (c : Dev nD) (i : grid0.Coords) (arg2 : Memref sig .tc .vmem S1x64x1024 .i32) (harg2 : arg2.IsWhole)
    (arg3 : Memref sig .tc .vmem S1x64x256x256 .bf16) (harg3 : arg3.IsWhole) (arg4 : Memref sig .tc .vmem S1x1x1024 .f32)
    (harg4 : arg4.IsWhole) (x0 : Vec F S1x64x1024 .i32) (x1 : Vec F S1x64x256x256 .bf16) (k : Fin k0_t1_loop.trips)
    (acc : FVec F S1024x1 .f32) :
    tripR_k0_t1 (F := F) Variants.none c none i arg2 harg2 arg3 harg3 arg4 harg4 (harg2.unread x0) (harg3.unread x1) k acc
      = k0_pay2 acc (addrRow x0 k) (tableRow x1 k) := by
  unfold tripR_k0_t1 trip_k0_t1
  dsimp only
  congr 1
  · funext y; exact harg2.readAt_unread x0 _ y
  · funext y; exact harg3.readAt_unread x1 _ y

/-- The carried column before trip `n`. -/
def colAfter (x0 : Vec F S1x64x1024 .i32) (x1 : Vec F S1x64x256x256 .bf16) : ℕ → FVec F S1024x1 .f32
  | 0 => k0_pay1
  | n + 1 => if h : n < k0_t1_loop.trips then k0_pay2 (colAfter x0 x1 n) (addrRow x0 ⟨n, h⟩) (tableRow x1 ⟨n, h⟩)
      else colAfter x0 x1 n

/-- The loop's carried value before trip `n` is that column. -/
theorem st_eq (c : Dev nD) (i : grid0.Coords) (arg2 : Memref sig .tc .vmem S1x64x1024 .i32) (harg2 : arg2.IsWhole)
    (arg3 : Memref sig .tc .vmem S1x64x256x256 .bf16) (harg3 : arg3.IsWhole) (arg4 : Memref sig .tc .vmem S1x1x1024 .f32)
    (harg4 : arg4.IsWhole) (x0 : Vec F S1x64x1024 .i32) (x1 : Vec F S1x64x256x256 .bf16) (n : ℕ) :
    st_k0_t1 (F := F) Variants.none c none i arg2 harg2 arg3 harg3 arg4 harg4 (harg2.unread x0) (harg3.unread x1) k0_pay1 n
      = colAfter x0 x1 n := by
  induction n with
  | zero => rfl
  | succ n ih =>
    rw [st_k0_t1.eq_2, colAfter]
    unfold st_k0_t1Step
    by_cases h : n < k0_t1_loop.trips
    · rw [dif_pos h, dif_pos h, tripR_eq, ih]
    · rw [dif_neg h, dif_neg h, ih]

theorem hz3 : (![0, 0, 0] : Fin 3 → Nat) = fun _ => 0 := funext fun a => by
  match a with
  | ⟨0, _⟩ => rfl
  | ⟨1, _⟩ => rfl
  | ⟨2, _⟩ => rfl

/-- What the body leaves in the output's staging buffer: the column after the last trip, as a row. -/
theorem out_eq (c : Dev nD) (i : grid0.Coords) (arg2 : Memref sig .tc .vmem S1x64x1024 .i32) (harg2 : arg2.IsWhole)
    (arg3 : Memref sig .tc .vmem S1x64x256x256 .bf16) (harg3 : arg3.IsWhole) (arg4 : Memref sig .tc .vmem S1x1x1024 .f32)
    (harg4 : arg4.IsWhole) (x0 : Vec F S1x64x1024 .i32) (x1 : Vec F S1x64x256x256 .bf16) :
    out0_A_2 (F := F) c i arg2 harg2 arg3 harg3 arg4 harg4 x0 x1 = k0_pay3 (colAfter x0 x1 k0_t1_loop.trips) := by
  unfold out0_A_2
  rw [View.read_writes_eq_canon _ _ _ (cover0_A_2 c i arg2 harg2 arg3 harg3 arg4 harg4 x0 x1)]
  unfold kernelRun0_A
  dsimp only
  sl_unfold_words
  rw [View.canon_unit_zero (S := S1x1x1024) hz3]
  exact congrArg k0_pay3 (st_eq c i arg2 harg2 arg3 harg3 arg4 harg4 x0 x1 _)

end Cert.RamLookup

end
-- ==== Proof.PointValue.lean ====
/-
  The kernel's output block read at one lane, as a sum over the 64 memories.

  The body's loop carries a column of 1024 partial counts. Trip `k` reads row `k` of the address block and memory
  `k`'s table, and adds to each lane's count the table entry at that lane's address (high byte, low byte). Starting
  from zeros, after the 64 trips lane `p` holds the sum over the memories `r` of memory `r`'s table entry at the
  address `x0[0, r, p]`; the block written back is that column laid out as a row.
-/
import proofs.«400448_j68401649156855_1_alg».proof.Proof.KernelLoop
import Idealize.ShloMosaic.PureOps.Ideal.Laws
import Idealize.ShloMosaic.Lib.ValueIdx
import Idealize.ShloMosaic.Lib.Pipeline.Value
import Idealize.ShloMosaic.Lib.ValueLayout

noncomputable section

namespace Cert.RamLookup

open Idealize.ShloMosaic Idealize.ShloMosaic.ValueIdx Idealize.ShloMosaic.TcCoe Cert.KernelIdeal Cert.KernelIdeal.Gen

/-- The loop runs once per memory. -/
theorem trips_eq : k0_t1_loop.trips = 64 := by decide

/-- Row `k` of the address block at lane `p` is the block's entry `(0, k, p)`. -/
theorem addrRow_apply {F : FTy → Type} [FloatOps F] (x0 : Vec F S1x64x1024 .i32) (k : Fin k0_t1_loop.trips) (p : Fin 1024) :
    addrRow x0 k (ix3 0 0 p) = x0 (ix3 0 ⟨k.val, Nat.lt_of_lt_of_eq k.isLt trips_eq⟩ p) := by
  unfold addrRow
  refine congrArg x0 (funext fun a => Fin.ext ?_)
  -- on each axis the row's index is the offset plus the local coordinate, and the offsets are `(0, k, 0)`
  have ho : ∀ b, k0_off1 k b = (![0, k.val, 0] : Fin 3 → Nat) b := fun b => congrFun (k0_off1_eq k) b
  match a with
  | ⟨0, h0⟩ => show k0_off1 k ⟨0, h0⟩ + 1 * 0 = 0; rw [ho]; rfl
  | ⟨1, h1⟩ => show k0_off1 k ⟨1, h1⟩ + 1 * 0 = k.val; rw [ho]; show k.val + 1 * 0 = k.val; omega
  | ⟨2, h2⟩ => show k0_off1 k ⟨2, h2⟩ + 1 * p.val = p.val; rw [ho]; show 0 + 1 * p.val = p.val; omega

/-- Memory `k`'s table at `(h, l)` is the table block's entry `(0, k, h, l)`. -/
theorem tableRow_apply {F : FTy → Type} [FloatOps F] (x1 : Vec F S1x64x256x256 .bf16) (k : Fin k0_t1_loop.trips) (h l : Fin 256) :
    tableRow x1 k (ix4 0 0 h l) = x1 (ix4 0 ⟨k.val, Nat.lt_of_lt_of_eq k.isLt trips_eq⟩ h l) := by
  unfold tableRow
  refine congrArg x1 (funext fun a => Fin.ext ?_)
  have ho : ∀ b, k0_off2 k b = (![0, k.val, 0, 0] : Fin 4 → Nat) b := fun b => congrFun (k0_off2_eq k) b
  match a with
  | ⟨0, h0⟩ => show k0_off2 k ⟨0, h0⟩ + 1 * 0 = 0; rw [ho]; rfl
  | ⟨1, h1⟩ => show k0_off2 k ⟨1, h1⟩ + 1 * 0 = k.val; rw [ho]; show k.val + 1 * 0 = k.val; omega
  | ⟨2, h2⟩ => show k0_off2 k ⟨2, h2⟩ + 1 * h.val = h.val; rw [ho]; show 0 + 1 * h.val = h.val; omega
  | ⟨3, h3⟩ => show k0_off2 k ⟨3, h3⟩ + 1 * l.val = l.val; rw [ho]; show 0 + 1 * l.val = l.val; omega

/-- The block written back, at lane `p`, is the column's entry `p`: the column is transposed to a row and given a
    leading unit axis. -/
theorem pay3_apply {F : FTy → Type} [FloatOps F] (v3 : FVec F S1024x1 .f32) (p : Fin 1024) :
    k0_pay3 v3 (ix3 0 0 p) = v3 (ix2 p 0) := by
  unfold k0_pay3
  exact (shapeCast_ab_1ab_apply _ shapeCasts_S1x1024_S1x1x1024 0 0 p).trans
    (transpose_ix2_apply v3 transposes_S1024x1_p1_0_S1x1024 0 p)

/-- One trip at a lane: the carried count plus the trip's table entry at the lane's address, high byte by low byte. -/
def PayStmt : Prop := ∀ (acc : FVec Ideal S1024x1 .f32) (v9 : Vec Ideal S1x1x1024 .i32) (v27 : Vec Ideal S1x1x256x256 .bf16) (p : Fin 1024) (h : (v9 (ix3 0 0 p)).toNat < 65536), k0_pay2 (F := Ideal) acc v9 v27 (ix2 p 0) = (acc (ix2 p 0) : EReal) + (v27 (ix4 0 0 ⟨(v9 (ix3 0 0 p)).toNat / 256, by omega⟩ ⟨(v9 (ix3 0 0 p)).toNat % 256, by omega⟩) : EReal)

/-- A table block's entry for memory `r` at a 16-bit address `w`: high byte by low byte. -/
def entryAt {n : ℕ} (t : Vec Ideal (⟨4, ![1, n, 256, 256]⟩ : Shape) .bf16) (r : Fin n) (w : BitVec 32) (hw : w.toNat < 65536) : EReal :=
  t (ix4 0 r ⟨w.toNat / 256, by omega⟩ ⟨w.toNat % 256, by omega⟩)

/-- The entry depends on the address only. -/
theorem entryAt_congr {n : ℕ} (t : Vec Ideal (⟨4, ![1, n, 256, 256]⟩ : Shape) .bf16) (r : Fin n) {w w' : BitVec 32} (e : w = w')
    (hw : w.toNat < 65536) (hw' : w'.toNat < 65536) : entryAt t r w hw = entryAt t r w' hw' := by
  subst e; rfl

/-- Memory `k`'s table at an address is the table block's entry for memory `k` there. -/
theorem entryAt_tableRow (x1 : Vec Ideal S1x64x256x256 .bf16) (k : Fin k0_t1_loop.trips) (w : BitVec 32) (hw : w.toNat < 65536) :
    entryAt (n := 1) (tableRow x1 k) 0 w hw = entryAt (n := 64) x1 ⟨k.val, Nat.lt_of_lt_of_eq k.isLt trips_eq⟩ w hw :=
  tableRow_apply x1 k _ _

/-- A sum over the memories below `n + 1` is the sum over those below `n` plus memory `n`'s term. -/
theorem sum_lt_succ (f : Fin 64 → EReal) (n : ℕ) (hn : n < 64) :
    (∑ r : Fin 64, if r.val < n + 1 then f r else 0) = (∑ r : Fin 64, if r.val < n then f r else 0) + f ⟨n, hn⟩ := by
  have h : ∀ r : Fin 64, (if r.val < n + 1 then f r else 0)
      = (if r.val < n then f r else 0) + (if r = ⟨n, hn⟩ then f r else 0) := by
    intro r
    by_cases h1 : r.val < n
    · have h2 : r ≠ ⟨n, hn⟩ := fun e => by rw [e] at h1; exact Nat.lt_irrefl _ h1
      rw [if_pos (Nat.lt_succ_of_lt h1), if_pos h1, if_neg h2, add_zero]
    · by_cases h2 : r = ⟨n, hn⟩
      · have h3 : r.val < n + 1 := by rw [h2]; exact Nat.lt_succ_self n
        rw [if_neg h1, if_pos h2, if_pos h3, zero_add]
      · have h3 : ¬ r.val < n + 1 := fun h3 => h2 (Fin.ext (by show r.val = n; omega))
        rw [if_neg h1, if_neg h2, if_neg h3, add_zero]
  rw [Finset.sum_congr rfl (fun r _ => h r), Finset.sum_add_distrib, Finset.sum_ite_eq', if_pos (Finset.mem_univ _)]

/-- The carried column before trip `n`, at lane `p`: the sum, over the memories below `n`, of the memory's table entry
    at the lane's address. -/
theorem colAfter_apply (hpay : PayStmt) (x0 : Vec Ideal S1x64x1024 .i32) (x1 : Vec Ideal S1x64x256x256 .bf16)
    (hx0 : ∀ (r : Fin 64) (p : Fin 1024), (x0 (ix3 0 r p)).toNat < 65536) (p : Fin 1024) :
    ∀ n : ℕ, n ≤ 64 → colAfter x0 x1 n (ix2 p 0)
      = ∑ r : Fin 64, if r.val < n then entryAt (n := 64) x1 r (x0 (ix3 0 r p)) (hx0 r p) else 0 := by
  intro n
  induction n with
  | zero =>
    intro _
    -- the column starts as zeros, and no memory is below 0
    rw [Finset.sum_eq_zero (fun r _ => if_neg (Nat.not_lt_zero r.val))]
    show Ideal.ofBits .f32 0x00000000#32 = 0
    exact Ideal.ofBits_zero_f32
  | succ n ih =>
    intro hn
    have hn64 : n < 64 := by omega
    have hk : n < k0_t1_loop.trips := by rw [trips_eq]; exact hn64
    have ha := addrRow_apply x0 ⟨n, hk⟩ p
    have hw : (addrRow x0 ⟨n, hk⟩ (ix3 0 0 p)).toNat < 65536 := by rw [ha]; exact hx0 ⟨n, hn64⟩ p
    rw [sum_lt_succ _ n hn64, ← ih (by omega), colAfter, dif_pos hk]
    refine (hpay (colAfter x0 x1 n) (addrRow x0 ⟨n, hk⟩) (tableRow x1 ⟨n, hk⟩) p hw).trans ?_
    refine congrArg (fun z : EReal => (colAfter x0 x1 n (ix2 p 0) : EReal) + z) ?_
    exact (entryAt_tableRow x1 ⟨n, hk⟩ _ hw).trans (entryAt_congr x1 ⟨n, hn64⟩ ha hw (hx0 ⟨n, hn64⟩ p))

/-- The kernel's output block at lane `p`: the sum over the 64 memories of the memory's table entry at the lane's
    address in that memory, high byte by low byte. -/
theorem out_apply (hpay : PayStmt) (c : Dev nD) (i : grid0.Coords) (arg2 : Memref sig .tc .vmem S1x64x1024 .i32) (harg2 : arg2.IsWhole)
    (arg3 : Memref sig .tc .vmem S1x64x256x256 .bf16) (harg3 : arg3.IsWhole) (arg4 : Memref sig .tc .vmem S1x1x1024 .f32)
    (harg4 : arg4.IsWhole) (x0 : Vec Ideal S1x64x1024 .i32) (x1 : Vec Ideal S1x64x256x256 .bf16)
    (hx0 : ∀ (r : Fin 64) (p : Fin 1024), (x0 (ix3 0 r p)).toNat < 65536) (p : Fin 1024) :
    out0_A_2 (F := Ideal) c i arg2 harg2 arg3 harg3 arg4 harg4 x0 x1 (ix3 0 0 p)
      = ∑ r : Fin 64, (x1 (ix4 0 r ⟨(x0 (ix3 0 r p)).toNat / 256, by have := hx0 r p; omega⟩ ⟨(x0 (ix3 0 r p)).toNat % 256, by omega⟩) : EReal) := by
  refine (congrFun (out_eq c i arg2 harg2 arg3 harg3 arg4 harg4 x0 x1) (ix3 0 0 p)).trans ?_
  refine (pay3_apply _ p).trans ?_
  rw [trips_eq]
  refine (colAfter_apply hpay x0 x1 hx0 p 64 (Nat.le_refl 64)).trans ?_
  exact Finset.sum_congr rfl (fun r _ => if_pos r.isLt)

end Cert.RamLookup

end
-- ==== Proof.KernelBlocks.lean ====
/-
  Where a grid point's blocks sit in their arrays.

  The grid is 10 classes by 8 batch tiles; point `t` is class `t / 8`, tile `t % 8`. Its address block is rows
  [class, all 64 memories, lanes 1024·tile … 1024·tile + 1023] of the transposed address array, its table block the
  class's whole [64, 256, 256] table, and its output block lanes 1024·tile … of row [class, 0] of the result. The 80
  output blocks tile the result.
-/
import proofs.«400448_j68401649156855_1_alg».proof.Proof.Gen.KernelIdeal.Frame
import Idealize.ShloMosaic.Lib.Pipeline.Value
import Idealize.ShloMosaic.Lib.ValueIdx

set_option maxRecDepth 16384

noncomputable section

namespace Cert.RamLookup

open Idealize.ShloMosaic Idealize.ShloMosaic.ValueIdx Idealize.ShloMosaic.TcCoe
open Idealize.SL Idealize.SL.Sem
open Cert.KernelIdeal Cert.KernelIdeal.Gen

variable {F : FTy → Type} [FloatOps F]

/-- The printed index maps over the grid: class `t / 8`, batch tile `t % 8`. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 4) = t.val / 8 ∧ win0_1.index t (1 : Fin 4) = 0 ∧ win0_1.index t (2 : Fin 4) = 0
    ∧ win0_1.index t (3 : Fin 4) = 0
    ∧ win0_2.index t (0 : Fin 3) = t.val / 8 ∧ win0_2.index t (1 : Fin 3) = 0 ∧ win0_2.index t (2 : Fin 3) = t.val % 8 :=
  (by decide +kernel : ∀ t : Fin grid0.N, _)

theorem N_eq : cfg0.N = 80 := by decide +kernel

theorem lt10 (t : Fin cfg0.N) : t.val / 8 < 10 := by have h : t.val < 80 := N_eq ▸ t.isLt; omega

/-- The class of point `t`. -/
def clsOf (t : Fin cfg0.N) : Fin 10 := ⟨t.val / 8, lt10 t⟩
/-- Lane `p` of point `t`'s batch tile, as a sample. -/
def laneOf (t : Fin cfg0.N) (p : Fin 1024) : Fin 8192 := ⟨1024 * (t.val % 8) + p.val, by have := p.isLt; omega⟩

/-- Block `t` of any array laid out like the address array: the point's class, the tile's lanes. -/
theorem blk0_read (X : Vec F S10x64x8192 .i32) (t : Fin cfg0.N) (r : Fin 64) (p : Fin 1024) :
    ((cfg0.win 0).blk t).view.read (Elt F) X (ix3 0 r p) = X (ix3 (clsOf t) r (laneOf t p)) := by
  obtain ⟨e0, e1, e2, -⟩ := idx_facts t
  rw [View.read_apply]
  refine congrArg X ?_
  funext a; apply Fin.ext
  match a with
  | ⟨0, _⟩ => show win0_0.index t (0 : Fin 3) * 1 + 1 * 0 = t.val / 8; omega
  | ⟨1, _⟩ => show win0_0.index t (1 : Fin 3) * 64 + 1 * r.val = r.val; omega
  | ⟨2, _⟩ => show win0_0.index t (2 : Fin 3) * 1024 + 1 * p.val = 1024 * (t.val % 8) + p.val; omega

/-- Block `t` of any array laid out like the reshaped table: the point's class's whole table. -/
theorem blk1_read (X : Vec F S10x64x256x256 .bf16) (t : Fin cfg0.N) (r : Fin 64) (h l : Fin 256) :
    ((cfg0.win 1).blk t).view.read (Elt F) X (ix4 0 r h l) = X (ix4 (clsOf t) r h l) := by
  obtain ⟨-, -, -, e0, e1, e2, e3, -⟩ := idx_facts t
  rw [View.read_apply]
  refine congrArg X ?_
  funext a; apply Fin.ext
  match a with
  | ⟨0, _⟩ => show win0_1.index t (0 : Fin 4) * 1 + 1 * 0 = t.val / 8; omega
  | ⟨1, _⟩ => show win0_1.index t (1 : Fin 4) * 64 + 1 * r.val = r.val; omega
  | ⟨2, _⟩ => show win0_1.index t (2 : Fin 4) * 256 + 1 * h.val = h.val; omega
  | ⟨3, _⟩ => show win0_1.index t (3 : Fin 4) * 256 + 1 * l.val = l.val; omega

/-- Block `t` of any array laid out like the result: row [class, 0], the tile's lanes. -/
theorem blk2_read (X : Vec F S10x1x8192 .f32) (t : Fin cfg0.N) (p : Fin 1024) :
    ((cfg0.win 2).blk t).view.read (Elt F) X (ix3 0 0 p) = X (ix3 (clsOf t) 0 (laneOf t p)) := by
  obtain ⟨-, -, -, -, -, -, -, e0, e1, e2⟩ := idx_facts t
  rw [View.read_apply]
  refine congrArg X ?_
  funext a; apply Fin.ext
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 1024 + 1 * p.val = 1024 * (t.val % 8) + p.val; omega

/-- An index of the result is in point `t`'s block iff each coordinate is in the block's range on its axis. -/
theorem mem_blk2 (t : Fin cfg0.N) (i : S10x1x8192.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v20).slice (win0_2.rect t)).set ↔ _
  rw [View.set_slice_whole, Rect.mem_set_unit]
  exact Iff.rfl

/-- The 80 output blocks cover the result: index (class, 0, b) lies in the block of point 8·class + b / 1024. -/
theorem cover2 (i : S10x1x8192.Idx) :
    ∃ t : Fin cfg0.N, (cfg0.win 2).flush t = true ∧ i ∈ ((cfg0.win 2).blk t).view.set := by
  have hi0 : (i 0).val < 10 := (i 0).isLt
  have hi1 : (i 1).val < 1 := (i 1).isLt
  have hi2 : (i 2).val < 8192 := (i 2).isLt
  let t : Fin cfg0.N := ⟨8 * (i 0).val + (i 2).val / 1024, by rw [N_eq]; omega⟩
  have ht : t.val = 8 * (i 0).val + (i 2).val / 1024 := rfl
  obtain ⟨-, -, -, -, -, -, -, e0, e1, e2⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

end Cert.RamLookup

end
-- ==== Proof.KernelValue.lean ====
/-
  The kernel's result array is the membership count.

  At grid point `t` (class `t / 8`, batch tile `t % 8`) the block written back holds, at lane `p`, the sum over the 64
  memories of the class's table at the address of sample 1024·tile + p, because every address is below 2^16 when the
  samples are bits: the address's high and low bytes pick its own entry out of the [256, 256] regrouping of the table
  row. The 80 blocks tile the [class, 1, sample] array, so that array is the count everywhere.
-/
import proofs.«400448_j68401649156855_1_alg».proof.Proof.Gen.KernelIdeal.Frame
import proofs.«400448_j68401649156855_1_alg».proof.Proof.Gen.ReferenceIdeal
import proofs.«400448_j68401649156855_1_alg».proof.Proof.Spec
import proofs.«400448_j68401649156855_1_alg».proof.Proof.AddrRange
import proofs.«400448_j68401649156855_1_alg».proof.Proof.Payload
import proofs.«400448_j68401649156855_1_alg».proof.Proof.PointValue
import proofs.«400448_j68401649156855_1_alg».proof.Proof.HostPrefix
import proofs.«400448_j68401649156855_1_alg».proof.Proof.KernelBlocks
import Idealize.ShloMosaic.Lib.Pipeline.Value
import Idealize.ShloMosaic.Lib.ValueIdx

set_option maxRecDepth 16384

noncomputable section

namespace Cert.RamLookup

open Idealize.ShloMosaic Idealize.ShloMosaic.ValueIdx Idealize.ShloMosaic.TcCoe
open Idealize.SL Idealize.SL.Sem
open Cert.KernelIdeal Cert.KernelIdeal.Gen

variable (m : (ℓ : Loc nD τ sig) → Buf (Elt Ideal) ℓ)

/-- The samples, the permutations and the table as launched, at their literal types. -/
abbrev sArg (c : Dev nD) : IVec Cert.ReferenceIdeal.S8192x1024 32 := m ((c : Thread nD τ).loc main_arg0)
abbrev tmArg (c : Dev nD) : IVec Cert.ReferenceIdeal.S10x1024 32 := m ((c : Thread nD τ).loc main_arg1)
abbrev tblArg (c : Dev nD) : FVec Ideal Cert.ReferenceIdeal.S10x64x65536 .f32 := m ((c : Thread nD τ).loc main_arg2)

/-- The count laid out as the kernel writes it: [class, 0, sample]. -/
def G20 (c : Dev nD) : Vec Ideal S10x1x8192 .f32 :=
  fun i => response (sArg m c) (tmArg m c) (tblArg m c) (i 2) (i 0)

/-- The address block at a grid point reads the packed addresses of the point's class and tile. -/
theorem ablk_apply (c : Dev nD) (t : Fin cfg0.N) (r : Fin 64) (p : Fin 1024) :
    (iblk m c 0 t : Vec Ideal S1x64x1024 .i32) (ix3 0 r p)
      = addr (sArg m c) (tmArg m c) (ix3 (laneOf t p) (clsOf t) r) :=
  (blk0_read (V m c main_v17) t r p).trans (V_v17_apply m c (clsOf t) r (laneOf t p))

/-- The table block at a grid point reads the class's table, the last axis regrouped by high and low byte. -/
theorem tblk_apply (c : Dev nD) (t : Fin cfg0.N) (r : Fin 64) (h l : Fin 256) :
    (iblk m c 1 t : Vec Ideal S1x64x256x256 .bf16) (ix4 0 r h l)
      = (tblArg m c (ix3 (clsOf t) r ⟨256 * h.val + l.val, by omega⟩) : EReal) :=
  (blk1_read (V m c main_v19) t r h l).trans (V_v19_apply m c (clsOf t) r h l)

/-- An entry of the table block at the bytes of an address below 2^16 is the table's entry at that address. -/
theorem entry_at (c : Dev nD) (t : Fin cfg0.N) (r : Fin 64) (a : BitVec 32) (ha : a.toNat < 65536)
    (h1 : a.toNat / 256 < 256) (h2 : a.toNat % 256 < 256) :
    (iblk m c 1 t : Vec Ideal S1x64x256x256 .bf16) (ix4 0 r ⟨a.toNat / 256, h1⟩ ⟨a.toNat % 256, h2⟩)
      = (tblArg m c (ix3 (clsOf t) r (pos a)) : EReal) := by
  refine (tblk_apply m c t r _ _).trans (congrArg (tblArg m c) ?_)
  funext d; apply Fin.ext
  match d with
  | ⟨0, _⟩ => rfl
  | ⟨1, _⟩ => rfl
  | ⟨2, _⟩ =>
    show 256 * (a.toNat / 256) + a.toNat % 256 = a.toNat % 65536
    omega

/-- WHAT POINT `t` WRITES BACK is block `t` of the count. -/
theorem flushed_eq (c : Dev nD) (hbits : IsBits (sArg m c)) (t : Fin cfg0.N) :
    (dats m 0 c).flushed 2 t = ((cfg0.win 2).blk t).view.read (Elt Ideal) (G20 m c) := by
  show (cfg0.win 2).cut (grid0.coords t) ((dats m 0 c).after 2 t) = _
  rw [after0_2]
  funext y
  obtain ⟨a0, a1, p, rfl⟩ : ∃ (a0 : Fin 1) (a1 : Fin 1) (p : Fin 1024), y = ix3 a0 a1 p := ⟨y 0, y 1, y 2, eq_ix3 y⟩
  obtain rfl : a0 = 0 := Subsingleton.elim _ _
  obtain rfl : a1 = 0 := Subsingleton.elim _ _
  rw [blk2_read]
  show outsAt0 m c t (ix3 0 0 p) = _
  unfold outsAt0
  have hx0 : ∀ (r : Fin 64) (q : Fin 1024), ((iblk m c 0 t : Vec Ideal S1x64x1024 .i32) (ix3 0 r q)).toNat < 65536 := by
    intro r q
    rw [ablk_apply]
    exact addr_lt hbits _ _
  refine (out_apply pay2_apply c (grid0.coords t) (ms0_0 t) (hs0_0 t) (ms0_1 t) (hs0_1 t) (ms0_2 t) (hs0_2 t)
    (iblk m c 0 t) (iblk m c 1 t) hx0 p).trans ?_
  show _ = response (sArg m c) (tmArg m c) (tblArg m c) (laneOf t p) (clsOf t)
  unfold response
  refine Finset.sum_congr rfl (fun r _ => ?_)
  exact (entry_at m c t r _ (hx0 r p) _ _).trans
    (congrArg (fun a => (tblArg m c (ix3 (clsOf t) r (pos a)) : EReal)) (ablk_apply m c t r p))

/-- THE ARRAY after the run is the count. -/
theorem final (c : Dev nD) (hbits : IsBits (sArg m c)) : (dats m 0 c).arrAt 2 cfg0.N = G20 m c :=
  (dats m 0 c).arrAt_eq_of_cover 2 (G20 m c) (fun t _ => flushed_eq m c hbits t) cover2

end Cert.RamLookup

end
-- ==== Proof.lean ====
/-
  The membership count of a table of 64 memories per class, computed two ways.

  A sample is a row of 1024 bits. Class `c` permutes the bits by its mapping and cuts them into 64 tuples of 16; tuple
  `r`, read big-endian, is an address `a(b, c, r) < 2^16`. The response of sample `b` for class `c` is
  `Σ_r table[c, r, a(b, c, r)]`.

  Both programs pack the addresses with the same host operations. The reference then reads the table by a three-index
  gather and sums over the memories. The kernel instead splits an address into its high and low byte, selects row
  `high` of the table row regrouped as [256, 256] by a product with a one-hot row (0 · x = 0 and 1 · x = x hold for every
  extended real, so the product is that row), selects entry `low` of it by a product with a second one-hot row and a
  lane sum, and accumulates over the memories in a loop; `256 · (a / 256) + a % 256 = a` makes the two reads one.
  The sums agree because addition of extended reals is commutative and associative.

  The two reads differ outside `0 ≤ a < 2^16` (the gather clamps its index, the one-hot rows are then zero), so the
  claim is stated for samples that are bits, as the reference documents them; an address of 16 bits is then below 2^16.
-/
import proofs.«400448_j68401649156855_1_alg».proof.Defs
import proofs.«400448_j68401649156855_1_alg».proof.Proof.Gen.Kernel
import proofs.«400448_j68401649156855_1_alg».proof.Proof.Gen.Kernel.Frame
import proofs.«400448_j68401649156855_1_alg».proof.Proof.Gen.KernelIdeal
import proofs.«400448_j68401649156855_1_alg».proof.Proof.Gen.KernelIdeal.Frame
import proofs.«400448_j68401649156855_1_alg».proof.Proof.Gen.ReferenceIdeal
import proofs.«400448_j68401649156855_1_alg».proof.Proof.Gen.Pre_finite_inputs
import proofs.«400448_j68401649156855_1_alg».proof.Proof.RefRun
import proofs.«400448_j68401649156855_1_alg».proof.Proof.RefValue
import proofs.«400448_j68401649156855_1_alg».proof.Proof.PreBits
import proofs.«400448_j68401649156855_1_alg».proof.Proof.AddrRange
import proofs.«400448_j68401649156855_1_alg».proof.Proof.HostPrefix
import proofs.«400448_j68401649156855_1_alg».proof.Proof.KernelTail
import proofs.«400448_j68401649156855_1_alg».proof.Proof.KernelValue
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem
open Cert.RamLookup

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end at the count `G` of the kernel's arguments: the kernel because its result array is the count
    laid out [class, 1, sample], regrouped and transposed by @main; the reference because its gather reads the table
    at the packed addresses, which are below 2^16 for samples that are bits. -/
theorem algebraic : Cert.algebraic_KernelIdeal_ReferenceIdeal := by
  intro m ρ m' ρ' hpre hagree
  have hbits : ∀ c : Dev Cert.KernelIdeal.nD, IsBits (sArg m c) := fun c => bits_of_pre _ _ _ (hpre c)
  refine ⟨fun c => G (sArg m c) (tmArg m c) (tblArg m c), ?_, ?_⟩
  · refine (θ_run Cert.KernelIdeal.defs _ _).mono (fun _ h c => ⟨(h c).1.trans ?_, (h c).2⟩) (run_named m ρ)
    rw [final m c (hbits c)]
    funext i
    obtain ⟨b, cls, rfl⟩ : ∃ (b : Fin 8192) (cls : Fin 10), i = ix2 b cls := ⟨i 0, i 1, eq_ix2 i⟩
    exact tail_index (G20 m c) b cls
  · refine (θ_run Cert.ReferenceIdeal.defs _ _).mono (fun _ h c => ⟨(h c).1.trans ?_, (h c).2⟩)
      (Cert.ReferenceIdeal.RunP.run (F := Ideal) m' ρ')
    have h0 := (hagree c).1
    have h1 := (hagree c).2.1
    have h2 := (hagree c).2.2
    refine (ref_eq m' c ?_).trans ?_
    · intro j
      rw [h0, h1]
      exact addr_lt (hbits c) _ j
    · rw [h0, h1, h2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
